-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x16x64 : Shape := ⟨4, ![8, 4096, 16, 64]⟩
abbrev S16x64x64 : Shape := ⟨3, ![16, 64, 64]⟩
abbrev S4 : Shape := ⟨1, ![4]⟩
abbrev S_ : Shape := ⟨0, ![]⟩

class Facts : Prop where
  bcast_S_S8x4096x16x64 : S_.BroadcastsInDim S8x4096x16x64 (![] : Fin 0 → Fin S8x4096x16x64.rank)
  reducesTo_S8x4096x16x64_S_d0_1_2_3 : S8x4096x16x64.ReducesTo [0, 1, 2, 3] S_
  h_S_ : 0 < S_.numel
  bcast_S_S16x64x64 : S_.BroadcastsInDim S16x64x64 (![] : Fin 0 → Fin S16x64x64.rank)
  reducesTo_S16x64x64_S_d0_1_2 : S16x64x64.ReducesTo [0, 1, 2] S_
  bcast_S_S4 : S_.BroadcastsInDim S4 (![] : Fin 0 → Fin S4.rank)
  reducesTo_S4_S_d0 : S4.ReducesTo [0] S_

variable [Facts]

def fn_part1 {F : FTy → Type} [FloatOps F] (main_arg3 : IVec S4 32) (main_v12 : IVec S_ 1) (main_v15 : IVec S_ 1) : IVec S_ 1 :=
  let main_v16 : IVec S_ 1 := andi main_v12 main_v15
  let main_c_6 : IVec S_ 32 := constantI S_ 32 0#32
  let main_v17 : IVec S4 32 := broadcastInDim S4 ![] bcast_S_S4 main_c_6
  let main_v18 : IVec S4 1 := cmpi .sge main_arg3 main_v17
  let main_c_7 : IVec S_ 1 := constantI S_ 1 1#1
  let main_v19 : IVec S_ 1 := (fun x v => Host.reduce IntOp.andi x v reducesTo_S4_S_d0 h_S_) main_v18 main_c_7
  let main_v20 : IVec S_ 1 := andi main_v16 main_v19
  let main_c_8 : IVec S_ 32 := constantI S_ 32 64#32
  let main_v21 : IVec S4 32 := broadcastInDim S4 ![] bcast_S_S4 main_c_8
  let main_v22 : IVec S4 1 := cmpi .slt main_arg3 main_v21
  let main_c_9 : IVec S_ 1 := constantI S_ 1 1#1
  let main_v23 : IVec S_ 1 := (fun x v => Host.reduce IntOp.andi x v reducesTo_S4_S_d0 h_S_) main_v22 main_c_9
  let main_v24 : IVec S_ 1 := andi main_v20 main_v23
  main_v24

def fn {F : FTy → Type} [FloatOps F] (main_arg0 : FVec F S8x4096x16x64 .f32) (main_arg1 : FVec F S16x64x64 .f32) (main_arg2 : IVec S4 32) (main_arg3 : IVec S4 32) : IVec S_ 1 :=
  let main_v0 : FVec F S8x4096x16x64 .f32 := Host.absf main_arg0
  let main_cst : FVec F S_ .f32 := constant S_ .f32 0x7F800000#32
  let main_v1 : FVec F S8x4096x16x64 .f32 := broadcastInDim S8x4096x16x64 ![] bcast_S_S8x4096x16x64 main_cst
  let main_v2 : IVec S8x4096x16x64 1 := cmpf .olt main_v0 main_v1
  let main_c : IVec S_ 1 := constantI S_ 1 1#1
  let main_v3 : IVec S_ 1 := (fun x v => Host.reduce IntOp.andi x v reducesTo_S8x4096x16x64_S_d0_1_2_3 h_S_) main_v2 main_c
  let main_v4 : FVec F S16x64x64 .f32 := Host.absf main_arg1
  let main_cst_0 : FVec F S_ .f32 := constant S_ .f32 0x7F800000#32
  let main_v5 : FVec F S16x64x64 .f32 := broadcastInDim S16x64x64 ![] bcast_S_S16x64x64 main_cst_0
  let main_v6 : IVec S16x64x64 1 := cmpf .olt main_v4 main_v5
  let main_c_1 : IVec S_ 1 := constantI S_ 1 1#1
  let main_v7 : IVec S_ 1 := (fun x v => Host.reduce IntOp.andi x v reducesTo_S16x64x64_S_d0_1_2 h_S_) main_v6 main_c_1
  let main_v8 : IVec S_ 1 := andi main_v3 main_v7
  let main_c_2 : IVec S_ 32 := constantI S_ 32 0#32
  let main_v9 : IVec S4 32 := broadcastInDim S4 ![] bcast_S_S4 main_c_2
  let main_v10 : IVec S4 1 := cmpi .sge main_arg2 main_v9
  let main_c_3 : IVec S_ 1 := constantI S_ 1 1#1
  let main_v11 : IVec S_ 1 := (fun x v => Host.reduce IntOp.andi x v reducesTo_S4_S_d0 h_S_) main_v10 main_c_3
  let main_v12 : IVec S_ 1 := andi main_v8 main_v11
  let main_c_4 : IVec S_ 32 := constantI S_ 32 64#32
  let main_v13 : IVec S4 32 := broadcastInDim S4 ![] bcast_S_S4 main_c_4
  let main_v14 : IVec S4 1 := cmpi .slt main_arg2 main_v13
  let main_c_5 : IVec S_ 1 := constantI S_ 1 1#1
  let main_v15 : IVec S_ 1 := (fun x v => Host.reduce IntOp.andi x v reducesTo_S4_S_d0 h_S_) main_v14 main_c_5
  fn_part1 (F := F) main_arg3 main_v12 main_v15
-- ==== Kernel.lean ====
abbrev S8x4096x16x64 : Shape := ⟨4, ![8, 4096, 16, 64]⟩
abbrev S16x64x64 : Shape := ⟨3, ![16, 64, 64]⟩
abbrev S4 : Shape := ⟨1, ![4]⟩
abbrev S64x64 : Shape := ⟨2, ![64, 64]⟩
abbrev S_ : Shape := ⟨0, ![]⟩
abbrev S1x64x64 : Shape := ⟨3, ![1, 64, 64]⟩
abbrev S64 : Shape := ⟨1, ![64]⟩
abbrev S1x64 : Shape := ⟨2, ![1, 64]⟩
abbrev S4x1 : Shape := ⟨2, ![4, 1]⟩
abbrev S4x64 : Shape := ⟨2, ![4, 64]⟩
abbrev S4x2 : Shape := ⟨2, ![4, 2]⟩
abbrev S16x4 : Shape := ⟨2, ![16, 4]⟩
abbrev S4x16 : Shape := ⟨2, ![4, 16]⟩
abbrev S8x4096 : Shape := ⟨2, ![8, 4096]⟩
abbrev S8x128x16x64 : Shape := ⟨4, ![8, 128, 16, 64]⟩
abbrev S8x128 : Shape := ⟨2, ![8, 128]⟩
abbrev S8x128x16 : Shape := ⟨3, ![8, 128, 16]⟩
abbrev S1x1x1x64 : Shape := ⟨4, ![1, 1, 1, 64]⟩
abbrev S1x16 : Shape := ⟨2, ![1, 16]⟩
abbrev S16 : Shape := ⟨1, ![16]⟩
abbrev S1x1x16 : Shape := ⟨3, ![1, 1, 16]⟩

abbrev nBuf : Space → Nat
  | .hbm => 88
  | .vmem => 8
  | .smem => 0
  | _ => 0

abbrev bufTy : (tb : Table) → Fin (tcTables nBuf tb) → BufTy
  | .hbm, ⟨0, _⟩ => ⟨S8x4096x16x64, .f32⟩
  | .hbm, ⟨1, _⟩ => ⟨S16x64x64, .f32⟩
  | .hbm, ⟨2, _⟩ => ⟨S4, .i32⟩
  | .hbm, ⟨3, _⟩ => ⟨S4, .i32⟩
  | .hbm, ⟨4, _⟩ => ⟨S64x64, .i32⟩
  | .hbm, ⟨5, _⟩ => ⟨S_, .i32⟩
  | .hbm, ⟨6, _⟩ => ⟨S64x64, .i32⟩
  | .hbm, ⟨7, _⟩ => ⟨S64x64, .i32⟩
  | .hbm, ⟨8, _⟩ => ⟨S64x64, .i32⟩
  | .hbm, ⟨9, _⟩ => ⟨S64x64, .i1⟩
  | .hbm, ⟨10, _⟩ => ⟨S16x64x64, .i1⟩
  | .hbm, ⟨11, _⟩ => ⟨S_, .f32⟩
  | .hbm, ⟨12, _⟩ => ⟨S16x64x64, .f32⟩
  | .hbm, ⟨13, _⟩ => ⟨S16x64x64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16x64x64, .f32⟩
  | .hbm, ⟨18, _⟩ => ⟨S16x64x64, .f32⟩
  | .hbm, ⟨19, _⟩ => ⟨S_, .f32⟩
  | .hbm, ⟨20, _⟩ => ⟨S16x64x64, .f32⟩
  | .hbm, ⟨21, _⟩ => ⟨S16x64x64, .f32⟩
  | .hbm, ⟨22, _⟩ => ⟨S16x64x64, .f32⟩
  | .hbm, ⟨23, _⟩ => ⟨S16x64x64, .f32⟩
  | .hbm, ⟨24, _⟩ => ⟨S64x64, .i32⟩
  | .hbm, ⟨25, _⟩ => ⟨S64x64, .i32⟩
  | .hbm, ⟨26, _⟩ => ⟨S_, .i32⟩
  | .hbm, ⟨27, _⟩ => ⟨S64x64, .i32⟩
  | .hbm, ⟨28, _⟩ => ⟨S64x64, .i32⟩
  | .hbm, ⟨29, _⟩ => ⟨S64x64, .i1⟩
  | .hbm, ⟨30, _⟩ => ⟨S64x64, .f32⟩
  | .hbm, ⟨31, _⟩ => ⟨S1x64x64, .f32⟩
  | .hbm, ⟨32, _⟩ => ⟨S_, .f32⟩
  | .hbm, ⟨33, _⟩ => ⟨S1x64x64, .f32⟩
  | .hbm, ⟨34, _⟩ => ⟨S1x64x64, .f32⟩
  | .hbm, ⟨35, _⟩ => ⟨S16x64x64, .f32⟩
  | .hbm, ⟨36, _⟩ => ⟨S16x64x64, .f32⟩
  | .hbm, ⟨37, _⟩ => ⟨S64, .i32⟩
  | .hbm, ⟨38, _⟩ => ⟨S1x64, .i32⟩
  | .hbm, ⟨39, _⟩ => ⟨S4x1, .i32⟩
  | .hbm, ⟨40, _⟩ => ⟨S4x64, .i32⟩
  | .hbm, ⟨41, _⟩ => ⟨S4x64, .i32⟩
  | .hbm, ⟨42, _⟩ => ⟨S4x64, .i1⟩
  | .hbm, ⟨43, _⟩ => ⟨S4x64, .f32⟩
  | .hbm, ⟨44, _⟩ => ⟨S4x1, .i32⟩
  | .hbm, ⟨45, _⟩ => ⟨S4x64, .i32⟩
  | .hbm, ⟨46, _⟩ => ⟨S4x64, .i32⟩
  | .hbm, ⟨47, _⟩ => ⟨S4x64, .i1⟩
  | .hbm, ⟨48, _⟩ => ⟨S4x64, .f32⟩
  | .hbm, ⟨49, _⟩ => ⟨S_, .i32⟩
  | .hbm, ⟨50, _⟩ => ⟨S4, .i32⟩
  | .hbm, ⟨51, _⟩ => ⟨S4, .i1⟩
  | .hbm, ⟨52, _⟩ => ⟨S_, .i32⟩
  | .hbm, ⟨53, _⟩ => ⟨S4, .i32⟩
  | .hbm, ⟨54, _⟩ => ⟨S4, .i32⟩
  | .hbm, ⟨55, _⟩ => ⟨S4, .i32⟩
  | .hbm, ⟨56, _⟩ => ⟨S_, .i32⟩
  | .hbm, ⟨57, _⟩ => ⟨S4, .i32⟩
  | .hbm, ⟨58, _⟩ => ⟨S4, .i1⟩
  | .hbm, ⟨59, _⟩ => ⟨S_, .i32⟩
  | .hbm, ⟨60, _⟩ => ⟨S4, .i32⟩
  | .hbm, ⟨61, _⟩ => ⟨S4, .i32⟩
  | .hbm, ⟨62, _⟩ => ⟨S4, .i32⟩
  | .hbm, ⟨63, _⟩ => ⟨S4x1, .i32⟩
  | .hbm, ⟨64, _⟩ => ⟨S4x1, .i32⟩
  | .hbm, ⟨65, _⟩ => ⟨S4x2, .i32⟩
  | .hbm, ⟨66, _⟩ => ⟨S16x4, .f32⟩
  | .hbm, ⟨67, _⟩ => ⟨S4x16, .f32⟩
  | .hbm, ⟨68, _⟩ => ⟨S_, .i32⟩
  | .hbm, ⟨69, _⟩ => ⟨S4, .i32⟩
  | .hbm, ⟨70, _⟩ => ⟨S4, .i1⟩
  | .hbm, ⟨71, _⟩ => ⟨S_, .i32⟩
  | .hbm, ⟨72, _⟩ => ⟨S4, .i32⟩
  | .hbm, ⟨73, _⟩ => ⟨S4, .i32⟩
  | .hbm, ⟨74, _⟩ => ⟨S4, .i32⟩
  | .hbm, ⟨75, _⟩ => ⟨S_, .i32⟩
  | .hbm, ⟨76, _⟩ => ⟨S4, .i32⟩
  | .hbm, ⟨77, _⟩ => ⟨S4, .i1⟩
  | .hbm, ⟨78, _⟩ => ⟨S_, .i32⟩
  | .hbm, ⟨79, _⟩ => ⟨S4, .i32⟩
  | .hbm, ⟨80, _⟩ => ⟨S4, .i32⟩
  | .hbm, ⟨81, _⟩ => ⟨S4, .i32⟩
  | .hbm, ⟨82, _⟩ => ⟨S4x1, .i32⟩
  | .hbm, ⟨83, _⟩ => ⟨S4x1, .i32⟩
  | .hbm, ⟨84, _⟩ => ⟨S4x2, .i32⟩
  | .hbm, ⟨85, _⟩ => ⟨S16x4, .f32⟩
  | .hbm, ⟨86, _⟩ => ⟨S4x16, .f32⟩
  | .hbm, ⟨87, _⟩ => ⟨S8x4096, .f32⟩
  | .local _ .vmem, ⟨0, _⟩ => ⟨S8x128x16x64, .f32⟩
  | .local _ .vmem, ⟨1, _⟩ => ⟨S8x128x16x64, .f32⟩
  | .local _ .vmem, ⟨2, _⟩ => ⟨S4x64, .f32⟩
  | .local _ .vmem, ⟨3, _⟩ => ⟨S4x64, .f32⟩
  | .local _ .vmem, ⟨4, _⟩ => ⟨S4x16, .f32⟩
  | .local _ .vmem, ⟨5, _⟩ => ⟨S4x16, .f32⟩
  | .local _ .vmem, ⟨6, _⟩ => ⟨S8x128, .f32⟩
  | .local _ .vmem, ⟨7, _⟩ => ⟨S8x128, .f32⟩
  | _, _ => ⟨S8x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_cst : Ref sig .tc := ⟨.hbm, 11, rfl⟩
abbrev main_call0_v6 : Ref sig .tc := ⟨.hbm, 12, rfl⟩
abbrev main_v0 : Ref sig .tc := ⟨.hbm, 13, rfl⟩
abbrev main_cst : Ref sig .tc := ⟨.hbm, 14, rfl⟩
abbrev main_cst_0 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_2 : Ref sig .tc := ⟨.hbm, 49, rfl⟩
abbrev main_v27 : Ref sig .tc := ⟨.hbm, 50, rfl⟩
abbrev main_v28 : Ref sig .tc := ⟨.hbm, 51, rfl⟩
abbrev main_c_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_4 : Ref sig .tc := ⟨.hbm, 56, rfl⟩
abbrev main_v32 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_6 : Ref sig .tc := ⟨.hbm, 68, rfl⟩
abbrev main_v42 : Ref sig .tc := ⟨.hbm, 69, rfl⟩
abbrev main_v43 : Ref sig .tc := ⟨.hbm, 70, rfl⟩
abbrev main_c_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_8 : Ref sig .tc := ⟨.hbm, 75, rfl⟩
abbrev main_v47 : Ref sig .tc := ⟨.hbm, 76, rfl⟩
abbrev main_v48 : Ref sig .tc := ⟨.hbm, 77, rfl⟩
abbrev main_c_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let v9 : Index := Scalar.indexCast arg7
  let c0_8 : Index := 0#32
  ![v9.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let v73 : Index := Scalar.indexCast arg7
  let c0_26 : Index := 0#32
  ![v73.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x128x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S64x64 : S_.BroadcastsInDim S64x64 (![] : Fin 0 → Fin S64x64.rank)
  bcast_S64x64_S16x64x64_1_2 : S64x64.BroadcastsInDim S16x64x64 (![1, 2] : Fin 2 → Fin S16x64x64.rank)
  bcast_S_S16x64x64 : S_.BroadcastsInDim S16x64x64 (![] : Fin 0 → Fin S16x64x64.rank)
  transposes_S16x64x64_S16x64x64_0_2_1 : S16x64x64.Transposes [0, 2, 1] S16x64x64
  bcast_S64x64_S1x64x64_1_2 : S64x64.BroadcastsInDim S1x64x64 (![1, 2] : Fin 2 → Fin S1x64x64.rank)
  bcast_S_S1x64x64 : S_.BroadcastsInDim S1x64x64 (![] : Fin 0 → Fin S1x64x64.rank)
  bcast_S1x64x64_S16x64x64_0_1_2 : S1x64x64.BroadcastsInDim S16x64x64 (![0, 1, 2] : Fin 3 → Fin S16x64x64.rank)
  bcast_S64_S1x64_1 : S64.BroadcastsInDim S1x64 (![1] : Fin 1 → Fin S1x64.rank)
  bcast_S4_S4x1_0 : S4.BroadcastsInDim S4x1 (![0] : Fin 1 → Fin S4x1.rank)
  bcast_S1x64_S4x64_0_1 : S1x64.BroadcastsInDim S4x64 (![0, 1] : Fin 2 → Fin S4x64.rank)
  bcast_S4x1_S4x64_0_1 : S4x1.BroadcastsInDim S4x64 (![0, 1] : Fin 2 → Fin S4x64.rank)
  bcast_S_S4 : S_.BroadcastsInDim S4 (![] : Fin 0 → Fin S4.rank)
  concatenates_S4x1_S4x1_S4x2_d1 : Shape.Concatenates [S4x1, S4x1] S4x2 1
  transposes_S16x4_S4x16_1_0 : S16x4.Transposes [1, 0] S4x16
  inb_S8x128x16x64_S8x128x16x64_0_0_0_0 : ∀ a, (![0, 0, 0, 0] : Fin 4 → Nat) a + S8x128x16x64.size a ≤ S8x128x16x64.size a
  h_S8x128x16x64 : 0 < S8x128x16x64.numel
  reduces_S8x128x16x64_S8x128x16 : S8x128x16x64.Reduces [3] S8x128x16
  h_S1x64 : 0 < S1x64.numel
  shapeCasts_S1x64_S64 : S1x64.ShapeCasts S64
  shapeCasts_S64_S1x1x1x64 : S64.ShapeCasts S1x1x1x64
  broadcasts_S1x1x1x64_S8x128x16x64 : S1x1x1x64.Broadcasts S8x128x16x64
  h_S1x16 : 0 < S1x16.numel
  shapeCasts_S1x16_S16 : S1x16.ShapeCasts S16
  shapeCasts_S16_S1x1x16 : S16.ShapeCasts S1x1x16
  broadcasts_S1x1x16_S8x128x16 : S1x1x16.Broadcasts S8x128x16
  reduces_S8x128x16_S8x128 : S8x128x16.Reduces [2] S8x128
  inb_S8x128_S8x128_0_0 : ∀ a, (![0, 0] : Fin 2 → Nat) a + S8x128.size a ≤ S8x128.size a
  h_S8x128 : 0 < S8x128.numel
  dot_S16x64x64_S16x64x64_S16x64x64_2_1_1_2_0_0_wf : DotDims.WF S16x64x64 S16x64x64 S16x64x64 [2] [1] [1] [2] [0] [0]
  gather_S16x64x64_S4x2_S16x4_0_12_n_n_12_1_1611_wf : GatherDims.WF S16x64x64 S4x2 S16x4 [0] [1, 2] [] [1, 2] [] 1 ![16, 1, 1]
  hrank0 : 0 < grid0.rank
  k0_t1_ok : k0_t1_loop.OK
  k0_off1_inb : ∀ k0_t1 : Fin k0_t1_loop.trips, ∀ a, (k0_off1 k0_t1) a + S1x64.size a ≤ S4x64.size a
  k0_off2_inb : ∀ k0_t1 : Fin k0_t1_loop.trips, ∀ a, (k0_off2 k0_t1) a + S1x16.size a ≤ S4x16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x16x64.size a ≤ S8x4096x16x64.size a
  hwx0_0 : ∀ i : grid0.Coords, EltTy.bits .f32 = 32 ∨ (Rect.block (s := S8x4096x16x64) S8x128x16x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64.size a ≤ S4x64.size a
  hwx0_2 : ∀ i : grid0.Coords, EltTy.bits .f32 = 32 ∨ (Rect.block (s := S4x64) S4x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x16.size a ≤ S4x16.size a
  hwx0_3 : ∀ i : grid0.Coords, EltTy.bits .f32 = 32 ∨ (Rect.block (s := S4x16) S4x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x16.size a ≤ S4x16.size a
  hwx0_4 : ∀ i : grid0.Coords, EltTy.bits .f32 = 32 ∨ (Rect.block (s := S4x16) S4x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x4096.size a
  hwx0_5 : ∀ i : grid0.Coords, EltTy.bits .f32 = 32 ∨ (Rect.block (s := S8x4096) S8x128.size (cc0_transform_5 i) (hinb0_5 i)).WholeWords (EltTy.packing .f32)

variable [Facts₀]

def dot_S16x64x64_S16x64x64_S16x64x64_2_1_1_2_0_0 : DotDims S16x64x64 S16x64x64 S16x64x64 where
  lhsContracting := [2]
  rhsContracting := [1]
  lhsNonContracting := [1]
  rhsNonContracting := [2]
  lhsBatch := [0]
  rhsBatch := [0]
  wf := dot_S16x64x64_S16x64x64_S16x64x64_2_1_1_2_0_0_wf
def gather_S16x64x64_S4x2_S16x4_0_12_n_n_12_1_1611 : GatherDims S16x64x64 S4x2 S16x4 where
  offsetDims := [0]
  collapsedSliceDims := [1, 2]
  operandBatchingDims := []
  startIndicesBatchingDims := []
  startIndexMap := [1, 2]
  indexVectorDim := 1
  sliceSizes := ![16, 1, 1]
  wf := gather_S16x64x64_S4x2_S16x4_0_12_n_n_12_1_1611_wf

abbrev win0_0 : Pipeline.Window sig grid0 :=
  Pipeline.Window.ofSpec (Memref.whole main_arg0) S8x128x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S4x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S4x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v56) S4x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v57) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x16x64 : Shape := ⟨4, ![8, 4096, 16, 64]⟩
abbrev S16x64x64 : Shape := ⟨3, ![16, 64, 64]⟩
abbrev S4 : Shape := ⟨1, ![4]⟩
abbrev S64x64 : Shape := ⟨2, ![64, 64]⟩
abbrev S_ : Shape := ⟨0, ![]⟩
abbrev S1x64x64 : Shape := ⟨3, ![1, 64, 64]⟩
abbrev S8x4096x16 : Shape := ⟨3, ![8, 4096, 16]⟩
abbrev S8x4096x16x1 : Shape := ⟨4, ![8, 4096, 16, 1]⟩
abbrev S4x1 : Shape := ⟨2, ![4, 1]⟩
abbrev S8x4096x16x4 : Shape := ⟨4, ![8, 4096, 16, 4]⟩
abbrev S4x2 : Shape := ⟨2, ![4, 2]⟩
abbrev S16x4 : Shape := ⟨2, ![16, 4]⟩
abbrev S1x1x16x4 : Shape := ⟨4, ![1, 1, 16, 4]⟩
abbrev S8x4096x4 : Shape := ⟨3, ![8, 4096, 4]⟩
abbrev S8x4096 : Shape := ⟨2, ![8, 4096]⟩

abbrev nBuf : Space → Nat
  | .hbm => 184
  | .vmem => 0
  | .smem => 0
  | _ => 0

abbrev hbmTy0_0 (i : Nat) : BufTy := match i % 128 with
  | 0 => ⟨S8x4096x16x64, .f32⟩
  | 1 => ⟨S16x64x64, .f32⟩
  | 2 => ⟨S4, .i32⟩
  | 3 => ⟨S4, .i32⟩
  | 4 => ⟨S64x64, .i32⟩
  | 5 => ⟨S_, .i32⟩
  | 6 => ⟨S64x64, .i32⟩
  | 7 => ⟨S64x64, .i32⟩
  | 8 => ⟨S64x64, .i32⟩
  | 9 => ⟨S64x64, .i1⟩
  | 10 => ⟨S16x64x64, .i1⟩
  | 11 => ⟨S_, .f32⟩
  | 12 => ⟨S16x64x64, .f32⟩
  | 13 => ⟨S16x64x64, .f32⟩
  | 14 => ⟨S_, .f32⟩
  | 15 => ⟨S_, .f32⟩
  | 16 => ⟨S_, .f32⟩
  | 17 => ⟨S16x64x64, .f32⟩
  | 18 => ⟨S16x64x64, .f32⟩
  | 19 => ⟨S_, .f32⟩
  | 20 => ⟨S16x64x64, .f32⟩
  | 21 => ⟨S16x64x64, .f32⟩
  | 22 => ⟨S16x64x64, .f32⟩
  | 23 => ⟨S16x64x64, .f32⟩
  | 24 => ⟨S64x64, .i32⟩
  | 25 => ⟨S64x64, .i32⟩
  | 26 => ⟨S_, .i32⟩
  | 27 => ⟨S64x64, .i32⟩
  | 28 => ⟨S64x64, .i32⟩
  | 29 => ⟨S64x64, .i1⟩
  | 30 => ⟨S64x64, .f32⟩
  | 31 => ⟨S_, .f32⟩
  | 32 => ⟨S64x64, .f32⟩
  | 33 => ⟨S64x64, .f32⟩
  | 34 => ⟨S1x64x64, .f32⟩
  | 35 => ⟨S16x64x64, .f32⟩
  | 36 => ⟨S16x64x64, .f32⟩
  | 37 => ⟨S8x4096x16x64, .f32⟩
  | 38 => ⟨S_, .f32⟩
  | 39 => ⟨S8x4096x16, .f32⟩
  | 40 => ⟨S8x4096x16x1, .f32⟩
  | 41 => ⟨S_, .i32⟩
  | 42 => ⟨S4, .i32⟩
  | 43 => ⟨S4, .i1⟩
  | 44 => ⟨S_, .i32⟩
  | 45 => ⟨S4, .i32⟩
  | 46 => ⟨S4, .i32⟩
  | 47 => ⟨S4, .i32⟩
  | 48 => ⟨S4x1, .i32⟩
  | 49 => ⟨S8x4096x16x4, .f32⟩
  | 50 => ⟨S8x4096x16x4, .f32⟩
  | 51 => ⟨S8x4096x16x4, .f32⟩
  | 52 => ⟨S8x4096x16x4, .f32⟩
  | 53 => ⟨S_, .f32⟩
  | 54 => ⟨S8x4096x16x4, .f32⟩
  | 55 => ⟨S8x4096x16x4, .f32⟩
  | 56 => ⟨S8x4096x16x4, .f32⟩
  | 57 => ⟨S8x4096x16x4, .f32⟩
  | 58 => ⟨S8x4096x16x4, .f32⟩
  | 59 => ⟨S_, .f32⟩
  | 60 => ⟨S8x4096x16x4, .f32⟩
  | 61 => ⟨S8x4096x16x4, .f32⟩
  | 62 => ⟨S8x4096x16x4, .f32⟩
  | 63 => ⟨S8x4096x16x4, .f32⟩
  | 64 => ⟨S8x4096x16x4, .f32⟩
  | 65 => ⟨S8x4096x16x4, .f32⟩
  | 66 => ⟨S_, .f32⟩
  | 67 => ⟨S8x4096x16x4, .f32⟩
  | 68 => ⟨S8x4096x16x4, .f32⟩
  | 69 => ⟨S_, .f32⟩
  | 70 => ⟨S8x4096x16x4, .f32⟩
  | 71 => ⟨S8x4096x16x4, .f32⟩
  | 72 => ⟨S8x4096x16x4, .f32⟩
  | 73 => ⟨S_, .f32⟩
  | 74 => ⟨S8x4096x16x4, .f32⟩
  | 75 => ⟨S8x4096x16x4, .f32⟩
  | 76 => ⟨S_, .f32⟩
  | 77 => ⟨S8x4096x16x4, .f32⟩
  | 78 => ⟨S8x4096x16x4, .f32⟩
  | 79 => ⟨S8x4096x16x4, .f32⟩
  | 80 => ⟨S_, .f32⟩
  | 81 => ⟨S8x4096x16x4, .f32⟩
  | 82 => ⟨S8x4096x16x4, .f32⟩
  | 83 => ⟨S_, .i32⟩
  | 84 => ⟨S4, .i32⟩
  | 85 => ⟨S4, .i1⟩
  | 86 => ⟨S_, .i32⟩
  | 87 => ⟨S4, .i32⟩
  | 88 => ⟨S4, .i32⟩
  | 89 => ⟨S4, .i32⟩
  | 90 => ⟨S4x1, .i32⟩
  | 91 => ⟨S8x4096x16x4, .f32⟩
  | 92 => ⟨S8x4096x16x4, .f32⟩
  | 93 => ⟨S8x4096x16x4, .f32⟩
  | 94 => ⟨S8x4096x16x4, .f32⟩
  | 95 => ⟨S_, .f32⟩
  | 96 => ⟨S8x4096x16x4, .f32⟩
  | 97 => ⟨S8x4096x16x4, .f32⟩
  | 98 => ⟨S8x4096x16x4, .f32⟩
  | 99 => ⟨S8x4096x16x4, .f32⟩
  | 100 => ⟨S8x4096x16x4, .f32⟩
  | 101 => ⟨S_, .f32⟩
  | 102 => ⟨S8x4096x16x4, .f32⟩
  | 103 => ⟨S8x4096x16x4, .f32⟩
  | 104 => ⟨S8x4096x16x4, .f32⟩
  | 105 => ⟨S8x4096x16x4, .f32⟩
  | 106 => ⟨S8x4096x16x4, .f32⟩
  | 107 => ⟨S8x4096x16x4, .f32⟩
  | 108 => ⟨S_, .f32⟩
  | 109 => ⟨S8x4096x16x4, .f32⟩
  | 110 => ⟨S8x4096x16x4, .f32⟩
  | 111 => ⟨S_, .f32⟩
  | 112 => ⟨S8x4096x16x4, .f32⟩
  | 113 => ⟨S8x4096x16x4, .f32⟩
  | 114 => ⟨S8x4096x16x4, .f32⟩
  | 115 => ⟨S_, .f32⟩
  | 116 => ⟨S8x4096x16x4, .f32⟩
  | 117 => ⟨S8x4096x16x4, .f32⟩
  | 118 => ⟨S_, .f32⟩
  | 119 => ⟨S8x4096x16x4, .f32⟩
  | 120 => ⟨S8x4096x16x4, .f32⟩
  | 121 => ⟨S8x4096x16x4, .f32⟩
  | 122 => ⟨S_, .f32⟩
  | 123 => ⟨S8x4096x16x4, .f32⟩
  | 124 => ⟨S8x4096x16x4, .f32⟩
  | 125 => ⟨S_, .i32⟩
  | 126 => ⟨S4, .i32⟩
  | 127 => ⟨S4, .i1⟩
  | _ => ⟨S8x4096x16x64, .f32⟩

abbrev hbmTy0_1 (i : Nat) : BufTy := match i % 128 with
  | 0 => ⟨S_, .i32⟩
  | 1 => ⟨S4, .i32⟩
  | 2 => ⟨S4, .i32⟩
  | 3 => ⟨S4, .i32⟩
  | 4 => ⟨S_, .i32⟩
  | 5 => ⟨S4, .i32⟩
  | 6 => ⟨S4, .i1⟩
  | 7 => ⟨S_, .i32⟩
  | 8 => ⟨S4, .i32⟩
  | 9 => ⟨S4, .i32⟩
  | 10 => ⟨S4, .i32⟩
  | 11 => ⟨S4x1, .i32⟩
  | 12 => ⟨S4x1, .i32⟩
  | 13 => ⟨S4x2, .i32⟩
  | 14 => ⟨S16x4, .f32⟩
  | 15 => ⟨S_, .i32⟩
  | 16 => ⟨S4, .i32⟩
  | 17 => ⟨S4, .i1⟩
  | 18 => ⟨S_, .i32⟩
  | 19 => ⟨S4, .i32⟩
  | 20 => ⟨S4, .i32⟩
  | 21 => ⟨S4, .i32⟩
  | 22 => ⟨S_, .i32⟩
  | 23 => ⟨S4, .i32⟩
  | 24 => ⟨S4, .i1⟩
  | 25 => ⟨S_, .i32⟩
  | 26 => ⟨S4, .i32⟩
  | 27 => ⟨S4, .i32⟩
  | 28 => ⟨S4, .i32⟩
  | 29 => ⟨S4x1, .i32⟩
  | 30 => ⟨S4x1, .i32⟩
  | 31 => ⟨S4x2, .i32⟩
  | 32 => ⟨S16x4, .f32⟩
  | 33 => ⟨S1x1x16x4, .f32⟩
  | 34 => ⟨S8x4096x16x4, .f32⟩
  | 35 => ⟨S8x4096x16x4, .f32⟩
  | 36 => ⟨S1x1x16x4, .f32⟩
  | 37 => ⟨S8x4096x16x4, .f32⟩
  | 38 => ⟨S8x4096x16x4, .f32⟩
  | 39 => ⟨S8x4096x16x4, .f32⟩
  | 40 => ⟨S_, .f32⟩
  | 41 => ⟨S8x4096x4, .f32⟩
  | 42 => ⟨S8x4096x4, .f32⟩
  | 43 => ⟨S8x4096x16x4, .f32⟩
  | 44 => ⟨S_, .f32⟩
  | 45 => ⟨S8x4096x4, .f32⟩
  | 46 => ⟨S8x4096x4, .f32⟩
  | 47 => ⟨S8x4096x4, .f32⟩
  | 48 => ⟨S_, .f32⟩
  | 49 => ⟨S8x4096x4, .f32⟩
  | 50 => ⟨S8x4096x4, .f32⟩
  | 51 => ⟨S_, .f32⟩
  | 52 => ⟨S8x4096, .f32⟩
  | 53 => ⟨S_, .f32⟩
  | 54 => ⟨S8x4096, .f32⟩
  | 55 => ⟨S8x4096, .f32⟩
  | _ => ⟨S8x4096x16x64, .f32⟩

abbrev hbmTy (i : Nat) : BufTy := match i / 128 with
  | 0 => hbmTy0_0 i
  | 1 => hbmTy0_1 i
  | _ => ⟨S8x4096x16x64, .f32⟩

abbrev bufTy : (tb : Table) → Fin (tcTables nBuf tb) → BufTy
  | .hbm, ⟨i, _⟩ => hbmTy i
  | _, _ => ⟨S8x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_cst : Ref sig .tc := ⟨.hbm, 11, rfl⟩
abbrev main_call0_v6 : Ref sig .tc := ⟨.hbm, 12, rfl⟩
abbrev main_v0 : Ref sig .tc := ⟨.hbm, 13, rfl⟩
abbrev main_cst : Ref sig .tc := ⟨.hbm, 14, rfl⟩
abbrev main_cst_0 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_c_12 : Ref sig .tc := ⟨.hbm, 83, rfl⟩
abbrev main_v51 : Ref sig .tc := ⟨.hbm, 84, rfl⟩
abbrev main_v52 : Ref sig .tc := ⟨.hbm, 85, rfl⟩
abbrev main_c_13 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_14 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_15 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_16 : Ref sig .tc := ⟨.hbm, 108, rfl⟩
abbrev main_v72 : Ref sig .tc := ⟨.hbm, 109, rfl⟩
abbrev main_v73 : Ref sig .tc := ⟨.hbm, 110, rfl⟩
abbrev main_cst_17 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_18 : Ref sig .tc := ⟨.hbm, 115, rfl⟩
abbrev main_v77 : Ref sig .tc := ⟨.hbm, 116, rfl⟩
abbrev main_v78 : Ref sig .tc := ⟨.hbm, 117, rfl⟩
abbrev main_cst_19 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_20 : Ref sig .tc := ⟨.hbm, 122, rfl⟩
abbrev main_v82 : Ref sig .tc := ⟨.hbm, 123, rfl⟩
abbrev main_v83 : Ref sig .tc := ⟨.hbm, 124, rfl⟩
abbrev main_c_21 : Ref sig .tc := ⟨.hbm, 125, rfl⟩
abbrev main_v84 : Ref sig .tc := ⟨.hbm, 126, rfl⟩
abbrev main_v85 : Ref sig .tc := ⟨.hbm, 127, rfl⟩
abbrev main_c_22 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_23 : Ref sig .tc := ⟨.hbm, 132, rfl⟩
abbrev main_v89 : Ref sig .tc := ⟨.hbm, 133, rfl⟩
abbrev main_v90 : Ref sig .tc := ⟨.hbm, 134, rfl⟩
abbrev main_c_24 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_c_25 : Ref sig .tc := ⟨.hbm, 143, rfl⟩
abbrev main_v98 : Ref sig .tc := ⟨.hbm, 144, rfl⟩
abbrev main_v99 : Ref sig .tc := ⟨.hbm, 145, rfl⟩
abbrev main_c_26 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_c_27 : Ref sig .tc := ⟨.hbm, 150, rfl⟩
abbrev main_v103 : Ref sig .tc := ⟨.hbm, 151, rfl⟩
abbrev main_v104 : Ref sig .tc := ⟨.hbm, 152, rfl⟩
abbrev main_c_28 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_call2_v0 : Ref sig .tc := ⟨.hbm, 167, rfl⟩
abbrev main_call2_cst : Ref sig .tc := ⟨.hbm, 168, rfl⟩
abbrev main_call2_v1 : Ref sig .tc := ⟨.hbm, 169, rfl⟩
abbrev main_v118 : Ref sig .tc := ⟨.hbm, 170, rfl⟩
abbrev main_call3_v0 : Ref sig .tc := ⟨.hbm, 171, rfl⟩
abbrev main_call3_cst : Ref sig .tc := ⟨.hbm, 172, rfl⟩
abbrev main_call3_v1 : Ref sig .tc := ⟨.hbm, 173, rfl⟩
abbrev main_v119 : Ref sig .tc := ⟨.hbm, 174, rfl⟩
abbrev main_v120 : Ref sig .tc := ⟨.hbm, 175, rfl⟩
abbrev main_cst_29 : Ref sig .tc := ⟨.hbm, 176, rfl⟩
abbrev main_v121 : Ref sig .tc := ⟨.hbm, 177, rfl⟩
abbrev main_v122 : Ref sig .tc := ⟨.hbm, 178, rfl⟩
abbrev main_cst_30 : Ref sig .tc := ⟨.hbm, 179, rfl⟩
abbrev main_v123 : Ref sig .tc := ⟨.hbm, 180, rfl⟩
abbrev main_cst_31 : Ref sig .tc := ⟨.hbm, 181, rfl⟩
abbrev main_v124 : Ref sig .tc := ⟨.hbm, 182, rfl⟩
abbrev main_v125 : Ref sig .tc := ⟨.hbm, 183, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  bcast_S64x64_S16x64x64_1_2 : S64x64.BroadcastsInDim S16x64x64 (![1, 2] : Fin 2 → Fin S16x64x64.rank)
  bcast_S_S16x64x64 : S_.BroadcastsInDim S16x64x64 (![] : Fin 0 → Fin S16x64x64.rank)
  transposes_S16x64x64_S16x64x64_0_2_1 : S16x64x64.Transposes [0, 2, 1] S16x64x64
  bcast_S64x64_S1x64x64_1_2 : S64x64.BroadcastsInDim S1x64x64 (![1, 2] : Fin 2 → Fin S1x64x64.rank)
  bcast_S1x64x64_S16x64x64_0_1_2 : S1x64x64.BroadcastsInDim S16x64x64 (![0, 1, 2] : Fin 3 → Fin S16x64x64.rank)
  reducesTo_S8x4096x16x64_S8x4096x16_d3 : S8x4096x16x64.ReducesTo [3] S8x4096x16
  h_S_ : 0 < S_.numel
  bcast_S8x4096x16_S8x4096x16x1_0_1_2 : S8x4096x16.BroadcastsInDim S8x4096x16x1 (![0, 1, 2] : Fin 3 → Fin S8x4096x16x1.rank)
  bcast_S_S4 : S_.BroadcastsInDim S4 (![] : Fin 0 → Fin S4.rank)
  bcast_S4_S4x1_0 : S4.BroadcastsInDim S4x1 (![0] : Fin 1 → Fin S4x1.rank)
  bcast_S8x4096x16x1_S8x4096x16x4_0_1_2_3 : S8x4096x16x1.BroadcastsInDim S8x4096x16x4 (![0, 1, 2, 3] : Fin 4 → Fin S8x4096x16x4.rank)
  bcast_S_S8x4096x16x4 : S_.BroadcastsInDim S8x4096x16x4 (![] : Fin 0 → Fin S8x4096x16x4.rank)
  concatenates_S4x1_S4x1_S4x2_d1 : Shape.Concatenates [S4x1, S4x1] S4x2 1
  bcast_S16x4_S1x1x16x4_2_3 : S16x4.BroadcastsInDim S1x1x16x4 (![2, 3] : Fin 2 → Fin S1x1x16x4.rank)
  bcast_S1x1x16x4_S8x4096x16x4_0_1_2_3 : S1x1x16x4.BroadcastsInDim S8x4096x16x4 (![0, 1, 2, 3] : Fin 4 → Fin S8x4096x16x4.rank)
  reducesTo_S8x4096x16x4_S8x4096x4_d2 : S8x4096x16x4.ReducesTo [2] S8x4096x4
  bcast_S_S8x4096x4 : S_.BroadcastsInDim S8x4096x4 (![] : Fin 0 → Fin S8x4096x4.rank)
  reducesTo_S8x4096x4_S8x4096_d2 : S8x4096x4.ReducesTo [2] S8x4096
  bcast_S_S8x4096 : S_.BroadcastsInDim S8x4096 (![] : Fin 0 → Fin S8x4096.rank)
  dot_S16x64x64_S16x64x64_S16x64x64_2_1_1_2_0_0_wf : DotDims.WF S16x64x64 S16x64x64 S16x64x64 [2] [1] [1] [2] [0] [0]
  gather_S8x4096x16x64_S4x1_S8x4096x16x4_012_3_n_n_3_1_84096161_wf : GatherDims.WF S8x4096x16x64 S4x1 S8x4096x16x4 [0, 1, 2] [3] [] [3] [] 1 ![8, 4096, 16, 1]
  gather_S16x64x64_S4x2_S16x4_0_12_n_n_12_1_1611_wf : GatherDims.WF S16x64x64 S4x2 S16x4 [0] [1, 2] [] [1, 2] [] 1 ![16, 1, 1]

variable [Facts₀]

def dot_S16x64x64_S16x64x64_S16x64x64_2_1_1_2_0_0 : DotDims S16x64x64 S16x64x64 S16x64x64 where
  lhsContracting := [2]
  rhsContracting := [1]
  lhsNonContracting := [1]
  rhsNonContracting := [2]
  lhsBatch := [0]
  rhsBatch := [0]
  wf := dot_S16x64x64_S16x64x64_S16x64x64_2_1_1_2_0_0_wf
def gather_S8x4096x16x64_S4x1_S8x4096x16x4_012_3_n_n_3_1_84096161 : GatherDims S8x4096x16x64 S4x1 S8x4096x16x4 where
  offsetDims := [0, 1, 2]
  collapsedSliceDims := [3]
  operandBatchingDims := []
  startIndicesBatchingDims := []
  startIndexMap := [3]
  indexVectorDim := 1
  sliceSizes := ![8, 4096, 16, 1]
  wf := gather_S8x4096x16x64_S4x1_S8x4096x16x4_012_3_n_n_3_1_84096161_wf
def gather_S16x64x64_S4x2_S16x4_0_12_n_n_12_1_1611 : GatherDims S16x64x64 S4x2 S16x4 where
  offsetDims := [0]
  collapsedSliceDims := [1, 2]
  operandBatchingDims := []
  startIndicesBatchingDims := []
  startIndexMap := [1, 2]
  indexVectorDim := 1
  sliceSizes := ![16, 1, 1]
  wf := gather_S16x64x64_S4x2_S16x4_0_12_n_n_12_1_1611_wf

class Facts : Prop extends Facts₀ where

variable [Facts]
-- ==== Proof.Domain.lean ====
/-
  What the precondition says of the plane index words: every word of k_idx and of l_idx, read as a signed number, lies
  in [0, 64), hence its unsigned value is below 64.  The precondition is a conjunction of six `all`s; the last four
  compare each word with 0 (signed, at least) and with 64 (signed, below).  A signed 32-bit number in [0, 64) has its
  top bit clear, so it is its own unsigned value.
-/
import proofs.«430706_j31181462569459_2_alg».proof.Pre_finite_inputs
import Idealize.ShloMosaic.Lib.ReduceAll
import Idealize.ShloMosaic.Lib.Affine
import Idealize.ShloMosaic.Lib.ValueIdx

noncomputable section

namespace Cert.Curvature.Domain

open Idealize.ShloMosaic Idealize.ShloMosaic.ValueIdx

instance : Subsingleton Cert.Pre_finite_inputs.S_.Idx := ⟨fun a b => funext fun d => d.elim0⟩

/-- A 32-bit word that is at least 0 and below 64 as a signed number has unsigned value below 64. -/
theorem toNat_lt_of_signed (w : BitVec 32) (h0 : (0#32 : BitVec 32).toInt ≤ w.toInt)
    (h1 : w.toInt < (64#32 : BitVec 32).toInt) : w.toNat < 64 := by
  have e0 : (0#32 : BitVec 32).toInt = 0 := by decide
  have e64 : (64#32 : BitVec 32).toInt = 64 := by decide
  rw [e0] at h0
  rw [e64] at h1
  have hw := w.isLt
  rw [BitVec.toInt_eq_toNat_cond] at h0 h1
  by_cases hc : 2 * w.toNat < 2 ^ 32
  · rw [if_pos hc] at h0 h1
    omega
  · rw [if_neg hc] at h0 h1
    omega

variable [Cert.Pre_finite_inputs.Facts]

/-- Under the precondition every plane index word is below 64. -/
theorem index_range {F : FTy → Type} [FloatOps F] (a0 : FVec F Cert.Pre_finite_inputs.S8x4096x16x64 .f32)
    (a1 : FVec F Cert.Pre_finite_inputs.S16x64x64 .f32) (k l : IVec Cert.Pre_finite_inputs.S4 32)
    (h : Cert.Pre_finite_inputs.fn (F := F) a0 a1 k l = fun _ => 1#1) :
    (∀ s : Fin 4, (k (ix1 s)).toNat < 64) ∧ (∀ s : Fin 4, (l (ix1 s)).toNat < 64) := by
  have h0 := congrFun h ix0
  dsimp only [Cert.Pre_finite_inputs.fn, Cert.Pre_finite_inputs.fn_part1] at h0
  obtain ⟨h20, h23⟩ := IntOp.andi_eq_one.1 h0
  obtain ⟨h16, h19⟩ := IntOp.andi_eq_one.1 h20
  obtain ⟨h12, h15⟩ := IntOp.andi_eq_one.1 h16
  obtain ⟨h8, h11⟩ := IntOp.andi_eq_one.1 h12
  refine ⟨fun s => ?_, fun s => ?_⟩
  · have a := Host.reduce_andi_all _ _ _ _ _ h11 (ix1 s)
    have b := Host.reduce_andi_all _ _ _ _ _ h15 (ix1 s)
    exact toNat_lt_of_signed _ (IntOp.cmpi_sge.1 a) (IntOp.cmpi_slt.1 b)
  · have a := Host.reduce_andi_all _ _ _ _ _ h19 (ix1 s)
    have b := Host.reduce_andi_all _ _ _ _ _ h23 (ix1 s)
    exact toNat_lt_of_signed _ (IntOp.cmpi_sge.1 a) (IntOp.cmpi_slt.1 b)

end Cert.Curvature.Domain

end
-- ==== Proof.KernelBody.lean ====
/-
  The kernel body as a function.  One grid point holds a block x of positions [8, 128, 16, 64] and the whole of four small
  tables: two 0/1 indicator tables [4, 64] (row s marks coordinate k_s, resp. l_s) and two metric tables [4, 16] (row s
  holds M[p, k_s, l_s], resp. M[p, l_s, k_s]).  The body carries a sum over the [8, 128] points through four trips;
  trip s reads row s of each table and adds -10 times the two norms.  Here: what one trip yields, the carried value
  after the four trips as four nested steps from the initial value, the stored block as the quotient of that value,
  and a row of a table read at an index.
-/
import proofs.«430706_j31181462569459_2_alg».proof.Proof.Gen.KernelIdeal.Frame
import Idealize.ShloMosaic.Lib.Pipeline.Value
import Idealize.ShloMosaic.Lib.WholeRead
import Idealize.ShloMosaic.Lib.ValueIdx

set_option maxRecDepth 16384

noncomputable section

namespace Cert.KernelIdeal.BodyValue

open Cert.KernelIdeal Cert.KernelIdeal.Gen
open Idealize.ShloMosaic Idealize.ShloMosaic.TcCoe Idealize.ShloMosaic.Tactic Idealize.SL.Sem

variable {F : FTy → Type} [FloatOps F]

/-- Row `k` of a [4, 64] table held in a whole buffer, as a [1, 64] vector. -/
abbrev row64 (arg : Memref sig .tc .vmem S4x64 .f32) (X : BufTy.Contents (Elt F) arg.view.ty) (k : Fin k0_t1_loop.trips) : Vec F S1x64 .f32 :=
  View.readAt (Elt F) arg.view (Rect.unit (s := S4x64) (k0_off1 k) S1x64.size (k0_off1_inb k)).toLoadRect X

/-- Row `k` of a [4, 16] table held in a whole buffer, as a [1, 16] vector. -/
abbrev row16 (arg : Memref sig .tc .vmem S4x16 .f32) (X : BufTy.Contents (Elt F) arg.view.ty) (k : Fin k0_t1_loop.trips) : Vec F S1x16 .f32 :=
  View.readAt (Elt F) arg.view (Rect.unit (s := S4x16) (k0_off2 k) S1x16.size (k0_off2_inb k)).toLoadRect X

/-- One sample's step: the carried sum plus -10 times the two norms, from the positions block, its squared norms and
    row `k` of each of the four tables. -/
def step (v0 : Vec F S8x128x16x64 .f32) (r1 r2 : Vec F S1x64 .f32) (r3 r4 : Vec F S1x16 .f32) (acc : FVec F S8x128 .f32) : FVec F S8x128 .f32 :=
  k0_pay3 acc (k0_pay5 v0 r2) (k0_pay6 v0 (k0_pay1 v0) r1) (k0_pay7 v0 (k0_pay1 v0) r2) (k0_pay8 v0 (k0_pay1 v0) r2)
    (Scalar.ofBits .f32 0x3A83126F#32) r3 r4

/-- What one trip of the loop yields is that step at the trip's rows. -/
theorem trip_eq (𝒱 : Variants) (c : Dev nD) (bd : Option 𝒱.V) (i : grid0.Coords) (arg1 : Memref sig .tc .vmem S8x128x16x64 .f32) (harg1 : arg1.IsWhole) (arg2 : Memref sig .tc .vmem S4x64 .f32) (harg2 : arg2.IsWhole) (arg3 : Memref sig .tc .vmem S4x64 .f32) (harg3 : arg3.IsWhole) (arg4 : Memref sig .tc .vmem S4x16 .f32) (harg4 : arg4.IsWhole) (arg5 : Memref sig .tc .vmem S4x16 .f32) (harg5 : arg5.IsWhole) (arg6 : Memref sig .tc .vmem S8x128 .f32) (harg6 : arg6.IsWhole) (v0 : Vec F S8x128x16x64 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips) (acc : FVec F S8x128 .f32) :
    tripR_k0_t1 (F := F) 𝒱 c bd i arg1 harg1 arg2 harg2 arg3 harg3 arg4 harg4 arg5 harg5 arg6 harg6 v0 X_arg2 X_arg3 X_arg4 X_arg5 k acc
      = step v0 (row64 arg2 X_arg2 k) (row64 arg3 X_arg3 k) (row16 arg4 X_arg4 k) (row16 arg5 X_arg5 k) acc := by
  unfold tripR_k0_t1 trip_k0_t1
  dsimp only
  sl_unfold_words
  rfl

theorem trips_eq : k0_t1_loop.trips = 4 := by decide

/-- Trip `n` of the four. -/
abbrev tripNo (n : Nat) (h : n < 4) : Fin k0_t1_loop.trips := ⟨n, trips_eq ▸ h⟩

/-- The carried value after the four trips: four steps from the initial value, at rows 0, 1, 2, 3. -/
theorem loop_eq (𝒱 : Variants) (c : Dev nD) (bd : Option 𝒱.V) (i : grid0.Coords) (arg1 : Memref sig .tc .vmem S8x128x16x64 .f32) (harg1 : arg1.IsWhole) (arg2 : Memref sig .tc .vmem S4x64 .f32) (harg2 : arg2.IsWhole) (arg3 : Memref sig .tc .vmem S4x64 .f32) (harg3 : arg3.IsWhole) (arg4 : Memref sig .tc .vmem S4x16 .f32) (harg4 : arg4.IsWhole) (arg5 : Memref sig .tc .vmem S4x16 .f32) (harg5 : arg5.IsWhole) (arg6 : Memref sig .tc .vmem S8x128 .f32) (harg6 : arg6.IsWhole) (v0 : Vec F S8x128x16x64 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (init : FVec F S8x128 .f32) :
    st_k0_t1 (F := F) 𝒱 c bd i arg1 harg1 arg2 harg2 arg3 harg3 arg4 harg4 arg5 harg5 arg6 harg6 v0 X_arg2 X_arg3 X_arg4 X_arg5 init 4
      = step v0 (row64 arg2 X_arg2 (tripNo 3 (by decide))) (row64 arg3 X_arg3 (tripNo 3 (by decide))) (row16 arg4 X_arg4 (tripNo 3 (by decide))) (row16 arg5 X_arg5 (tripNo 3 (by decide)))
        (step v0 (row64 arg2 X_arg2 (tripNo 2 (by decide))) (row64 arg3 X_arg3 (tripNo 2 (by decide))) (row16 arg4 X_arg4 (tripNo 2 (by decide))) (row16 arg5 X_arg5 (tripNo 2 (by decide)))
        (step v0 (row64 arg2 X_arg2 (tripNo 1 (by decide))) (row64 arg3 X_arg3 (tripNo 1 (by decide))) (row16 arg4 X_arg4 (tripNo 1 (by decide))) (row16 arg5 X_arg5 (tripNo 1 (by decide)))
        (step v0 (row64 arg2 X_arg2 (tripNo 0 (by decide))) (row64 arg3 X_arg3 (tripNo 0 (by decide))) (row16 arg4 X_arg4 (tripNo 0 (by decide))) (row16 arg5 X_arg5 (tripNo 0 (by decide))) init))) := by
  have h : ∀ k : Fin k0_t1_loop.trips,
      st_k0_t1 (F := F) 𝒱 c bd i arg1 harg1 arg2 harg2 arg3 harg3 arg4 harg4 arg5 harg5 arg6 harg6 v0 X_arg2 X_arg3 X_arg4 X_arg5 init (k.val + 1)
        = step v0 (row64 arg2 X_arg2 k) (row64 arg3 X_arg3 k) (row16 arg4 X_arg4 k) (row16 arg5 X_arg5 k)
            (st_k0_t1 (F := F) 𝒱 c bd i arg1 harg1 arg2 harg2 arg3 harg3 arg4 harg4 arg5 harg5 arg6 harg6 v0 X_arg2 X_arg3 X_arg4 X_arg5 init k.val) :=
    fun k => (st_k0_t1_succ (F := F) 𝒱 c bd i arg1 harg1 arg2 harg2 arg3 harg3 arg4 harg4 arg5 harg5 arg6 harg6 v0 X_arg2 X_arg3 X_arg4 X_arg5 init k).trans
      (trip_eq 𝒱 c bd i arg1 harg1 arg2 harg2 arg3 harg3 arg4 harg4 arg5 harg5 arg6 harg6 v0 X_arg2 X_arg3 X_arg4 X_arg5 k _)
  exact (h (tripNo 3 (by decide))).trans (congrArg (step v0 _ _ _ _) ((h (tripNo 2 (by decide))).trans (congrArg (step v0 _ _ _ _)
    ((h (tripNo 1 (by decide))).trans (congrArg (step v0 _ _ _ _) (h (tripNo 0 (by decide))))))))

theorem zeros2 : (![0, 0] : Fin S8x128.rank → Nat) = fun _ => 0 := by funext a; fin_cases a <;> rfl
theorem zeros4 : (![0, 0, 0, 0] : Fin S8x128x16x64.rank → Nat) = fun _ => 0 := by funext a; fin_cases a <;> rfl

/-- What the body leaves in the output block: the mean's quotient of the carried value after the four trips from zero,
    over the positions block `x0` and the four tables' blocks. -/
theorem out_eq (c : Dev nD) (i : grid0.Coords) (arg1 : Memref sig .tc .vmem S8x128x16x64 .f32) (harg1 : arg1.IsWhole) (arg2 : Memref sig .tc .vmem S4x64 .f32) (harg2 : arg2.IsWhole) (arg3 : Memref sig .tc .vmem S4x64 .f32) (harg3 : arg3.IsWhole) (arg4 : Memref sig .tc .vmem S4x16 .f32) (harg4 : arg4.IsWhole) (arg5 : Memref sig .tc .vmem S4x16 .f32) (harg5 : arg5.IsWhole) (arg6 : Memref sig .tc .vmem S8x128 .f32) (harg6 : arg6.IsWhole)
    (x0 : Vec F S8x128x16x64 .f32) (x1 : Vec F S4x64 .f32) (x2 : Vec F S4x64 .f32) (x3 : Vec F S4x16 .f32) (x4 : Vec F S4x16 .f32) :
    out0_A_5 (F := F) c i arg1 harg1 arg2 harg2 arg3 harg3 arg4 harg4 arg5 harg5 arg6 harg6 x0 x1 x2 x3 x4
      = k0_pay4 (st_k0_t1 (F := F) Variants.none c none i arg1 harg1 arg2 harg2 arg3 harg3 arg4 harg4 arg5 harg5 arg6 harg6 x0
          (harg2.unread x1) (harg3.unread x2) (harg4.unread x3) (harg5.unread x4) (k0_pay2 (F := F)) 4) := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  rw [View.canon_unit_zero zeros2]
  simp only [View.readAt_eq_ld, harg1.read_unread, View.ld_unit_zero (S := S8x128x16x64) zeros4]
  rfl

/-- Row `k` of a [4, 64] table held whole at contents `X`, at lane `d`: the table at (k, d). -/
theorem row64_apply (arg : Memref sig .tc .vmem S4x64 .f32) (harg : arg.IsWhole) (X : Vec F S4x64 .f32) (n : Nat) (hn : n < 4) (d : Fin 64) :
    row64 arg (harg.unread X) (tripNo n hn) (ValueIdx.ix2 (0 : Fin 1) d) = X (ValueIdx.ix2 (⟨n, hn⟩ : Fin 4) d) := by
  refine (harg.readAt_unread X _ _).trans (congrArg X ?_)
  funext a
  refine Fin.ext ?_
  have e := congrFun (k0_off1_eq (tripNo n hn)) a
  fin_cases a
  · show k0_off1 (tripNo n hn) 0 + 1 * 0 = n
    rw [show k0_off1 (tripNo n hn) 0 = n from e]; omega
  · show k0_off1 (tripNo n hn) 1 + 1 * d.val = d.val
    rw [show k0_off1 (tripNo n hn) 1 = 0 from e]; omega

/-- Row `k` of a [4, 16] table held whole at contents `X`, at component `p`: the table at (k, p). -/
theorem row16_apply (arg : Memref sig .tc .vmem S4x16 .f32) (harg : arg.IsWhole) (X : Vec F S4x16 .f32) (n : Nat) (hn : n < 4) (p : Fin 16) :
    row16 arg (harg.unread X) (tripNo n hn) (ValueIdx.ix2 (0 : Fin 1) p) = X (ValueIdx.ix2 (⟨n, hn⟩ : Fin 4) p) := by
  refine (harg.readAt_unread X _ _).trans (congrArg X ?_)
  funext a
  refine Fin.ext ?_
  have e := congrFun (k0_off2_eq (tripNo n hn)) a
  fin_cases a
  · show k0_off2 (tripNo n hn) 0 + 1 * 0 = n
    rw [show k0_off2 (tripNo n hn) 0 = n from e]; omega
  · show k0_off2 (tripNo n hn) 1 + 1 * p.val = p.val
    rw [show k0_off2 (tripNo n hn) 1 = 0 from e]; omega

end Cert.KernelIdeal.BodyValue

end
-- ==== Proof.Spec.lean ====
/-
  The mathematics both programs compute, stated once over the extended reals.

  For a point x in R^64 with squared norm q = sum_d x_d^2 and a coordinate value xi = x_k, the norm of x moved by
  +h or -h along coordinate k has square  q - xi^2 + (xi +- h)^2.  The conformal factor is c(n) = 1 + 0.1 tanh n, and
  its central difference along the coordinate is  (c(n+) - c(n-)) / (2h).  One sample of the curvature proxy weighs
  these differences, for the two coordinates k and l of a plane and each of the 16 components p, by the metric
  entries M[p,k,l] and M[p,l,k], takes the Euclidean norms over p, adds them and scales by -10; the proxy is the
  mean of four samples.  The constants are the extended reals their f32 words denote, the same words in both programs.

  Three facts join the two programs.  A coordinate picked by a 0/1 indicator, sum_d x_d * [d = k], is x_k: every
  other summand is x_d * 0 = 0 on the extended reals, infinities included.  A sum accumulated in four steps from 0
  is the four-term sum.  And a sum started from the word 0 is the sum.
-/
import Idealize.ShloMosaic.PureOps.Ideal
import Idealize.ShloMosaic.PureOps.Ideal.Laws
import Idealize.ShloMosaic.Lib.ValueIdx

noncomputable section

namespace Cert.Curvature

open Idealize.ShloMosaic Idealize.ShloMosaic.ValueIdx

/-- The step h = f32(1e-3). -/
abbrev stepW : EReal := Ideal.ofBits .f32 0x3A83126F#32
/-- f32(0.1). -/
abbrev tenthW : EReal := Ideal.ofBits .f32 0x3DCCCCCD#32
/-- 1. -/
abbrev oneW : EReal := Ideal.ofBits .f32 0x3F800000#32
/-- 2h = f32(2e-3). -/
abbrev twoStepW : EReal := Ideal.ofBits .f32 0x3B03126F#32
/-- -10. -/
abbrev negTenW : EReal := Ideal.ofBits .f32 0xC1200000#32
/-- 4, the number of samples. -/
abbrev fourW : EReal := Ideal.ofBits .f32 0x40800000#32

/-- The conformal factor 1 + 0.1 tanh n. -/
def conformal (n : EReal) : EReal := oneW + tenthW * Ideal.tanh n

/-- The central difference of the conformal factor along a coordinate of value `xi` at a point of squared norm `q`. -/
def centralDiff (q xi : EReal) : EReal :=
  Ideal.div
    (conformal (Ideal.sqrt (q - xi * xi + (xi + stepW) * (xi + stepW)))
      - conformal (Ideal.sqrt (q - xi * xi + (xi - stepW) * (xi - stepW))))
    twoStepW

/-- One sample: -10 times the sum of the two norms over the 16 components. -/
def sample (q xk xl mk ml : Fin 16 → EReal) : EReal :=
  negTenW * (Ideal.sqrt (∑ p, (centralDiff (q p) (xk p) * mk p) * (centralDiff (q p) (xk p) * mk p))
    + Ideal.sqrt (∑ p, (centralDiff (q p) (xl p) * ml p) * (centralDiff (q p) (xl p) * ml p)))

/-- The mean of four samples. -/
def proxy (a : Fin 4 → EReal) : EReal := Ideal.div (∑ s, a s) fourW

/-- A coordinate picked by a 0/1 indicator: every other summand vanishes, also at the infinities. -/
theorem sum_indicator {n : Nat} (f : Fin n → EReal) (e : Fin n → EReal) (k : Fin n)
    (he : ∀ d, e d = if d = k then 1 else 0) : ∑ d, f d * e d = f k := by
  rw [Finset.sum_eq_single k]
  · rw [he k, if_pos rfl, mul_one]
  · intro d _ hd
    rw [he d, if_neg hd, mul_zero]
  · intro h; exact absurd (Finset.mem_univ k) h

/-- Four steps of accumulation from 0 give the four-term sum. -/
theorem sum_four (a : Fin 4 → EReal) : (((0 + a 0) + a 1) + a 2) + a 3 = ∑ s, a s := by
  rw [Fin.sum_univ_four, zero_add]

/-- A plane index word read as a coordinate of the 64 coordinates (a word in [0, 64) is its own value). -/
def coord (w : BitVec 32) : Fin 64 := ⟨w.toNat % 64, Nat.mod_lt _ (by decide)⟩

theorem coord_val {w : BitVec 32} (h : w.toNat < 64) : (coord w).val = w.toNat := Nat.mod_eq_of_lt h

/-- THE RESULT as one function of the positions x[b,t,p,d], the two gathered metric tables M[p, k_s, l_s] and
    M[p, l_s, k_s] (as [16, 4] arrays indexed (p, s)) and the plane index words: at (b, t) the mean over the four
    samples s of the sample at the point's 16 components, with q_p = sum_d x[b,t,p,d]^2 and the coordinate values
    x[b,t,p,k_s], x[b,t,p,l_s]. -/
def curvature (pos : (⟨4, ![8, 4096, 16, 64]⟩ : Shape).Idx → EReal) (mkl mlk : (⟨2, ![16, 4]⟩ : Shape).Idx → EReal)
    (kI lI : (⟨1, ![4]⟩ : Shape).Idx → BitVec 32) : (⟨2, ![8, 4096]⟩ : Shape).Idx → EReal :=
  fun j => proxy fun s => sample
    (fun p => ∑ d, pos (ix4 (j 0) (j 1) p d) * pos (ix4 (j 0) (j 1) p d))
    (fun p => pos (ix4 (j 0) (j 1) p (coord (kI (ix1 s)))))
    (fun p => pos (ix4 (j 0) (j 1) p (coord (lI (ix1 s)))))
    (fun p => mkl (ix2 p s)) (fun p => mlk (ix2 p s))

end Cert.Curvature

end
-- ==== Proof.KernelPoint.lean ====
/-
  The kernel body's arithmetic at a point, on the extended reals.  At (b, r) of a block and a component p: the squared
  norm is the lane sum of x*x; a coordinate value is the lane sum of x times a table row (a 0/1 indicator row picks the
  coordinate); the central difference of the conformal factor is a pointwise function of those two; a metric row
  weighs it per component; a norm is the root of the component sum of squares.  One step adds to the carried sum -10
  times the two norms: the specification's sample at the point's values.
-/
import proofs.«430706_j31181462569459_2_alg».proof.Proof.KernelBody
import proofs.«430706_j31181462569459_2_alg».proof.Proof.Spec
import Idealize.ShloMosaic.Lib.ValueLayout
import Idealize.ShloMosaic.PureOps.Ideal.Laws

set_option maxRecDepth 16384

noncomputable section

namespace Cert.KernelIdeal.BodyValue

open Cert.KernelIdeal Cert.KernelIdeal.Gen
open Idealize.ShloMosaic Idealize.ShloMosaic.ValueIdx Cert.Curvature

/-- A lane sum at (b, r, p): the sum over the 64 lanes. -/
theorem laneSum (v : FVec Ideal S8x128x16x64 .f32) (b : Fin 8) (r : Fin 128) (p : Fin 16) :
    multiReduction .add [3] S8x128x16 v 0x00000000#32 reduces_S8x128x16x64_S8x128x16 (.inl rfl) rfl (ix3 b r p)
      = ∑ d : Fin 64, v (ix4 b r p d) := by
  refine (Ideal.multiReduction_add_single v 0x00000000#32 reduces_S8x128x16x64_S8x128x16 (.inl rfl) rfl (ix3 b r p)).trans ?_
  refine Finset.sum_congr rfl fun d _ => congrArg v ?_
  funext a
  refine Fin.ext ?_
  fin_cases a <;> rfl

/-- A component sum at (b, r): the sum over the 16 components. -/
theorem compSum (v : FVec Ideal S8x128x16 .f32) (b : Fin 8) (r : Fin 128) :
    multiReduction .add [2] S8x128 v 0x00000000#32 reduces_S8x128x16_S8x128 (.inl rfl) rfl (ix2 b r)
      = ∑ p : Fin 16, v (ix3 b r p) := by
  refine (Ideal.multiReduction_add_single v 0x00000000#32 reduces_S8x128x16_S8x128 (.inl rfl) rfl (ix2 b r)).trans ?_
  refine Finset.sum_congr rfl fun p _ => congrArg v ?_
  funext a
  refine Fin.ext ?_
  fin_cases a <;> rfl

/-- A [1, 64] row spread over a positions block. -/
def lanes64 (row : Vec Ideal S1x64 .f32) : FVec Ideal S8x128x16x64 .f32 :=
  broadcastTo S8x128x16x64 (shapeCast S1x1x1x64 (shapeCast S64 row shapeCasts_S1x64_S64) shapeCasts_S64_S1x1x1x64) broadcasts_S1x1x1x64_S8x128x16x64

/-- A [1, 16] row spread over the points' components. -/
def lanes16 (row : Vec Ideal S1x16 .f32) : FVec Ideal S8x128x16 .f32 :=
  broadcastTo S8x128x16 (shapeCast S1x1x16 (shapeCast S16 row shapeCasts_S1x16_S16) shapeCasts_S16_S1x1x16) broadcasts_S1x1x16_S8x128x16

theorem lanes64_apply (row : Vec Ideal S1x64 .f32) (b : Fin 8) (r : Fin 128) (p : Fin 16) (d : Fin 64) :
    lanes64 row (ix4 b r p d) = row (ix2 (0 : Fin 1) d) := by
  unfold lanes64
  refine (broadcastTo_apply _ _ (ix4 b r p d) (ix4 (0 : Fin 1) (0 : Fin 1) (0 : Fin 1) d) ?_).trans ?_
  · intro a; fin_cases a <;> rfl
  refine (shapeCast_apply _ _ _ (ix1 d) ?_).trans ?_
  · rw [Shape.rowMajor_val_one, Shape.rowMajor_val_four]
    show d.val = ((0 * 1 + 0) * 1 + 0) * 64 + d.val
    omega
  exact shapeCast_1a_a_apply row _ d

theorem lanes16_apply (row : Vec Ideal S1x16 .f32) (b : Fin 8) (r : Fin 128) (p : Fin 16) :
    lanes16 row (ix3 b r p) = row (ix2 (0 : Fin 1) p) := by
  unfold lanes16
  refine (broadcastTo_apply _ _ (ix3 b r p) (ix3 (0 : Fin 1) (0 : Fin 1) p) ?_).trans ?_
  · intro a; fin_cases a <;> rfl
  refine (shapeCast_apply _ _ _ (ix1 p) ?_).trans ?_
  · rw [Shape.rowMajor_val_one, Shape.rowMajor_val_three]
    show p.val = (0 * 1 + 0) * 16 + p.val
    omega
  exact shapeCast_1a_a_apply row _ p

/-- The squared norm at (b, r, p). -/
theorem sqnorm_apply (x0 : Vec Ideal S8x128x16x64 .f32) (b : Fin 8) (r : Fin 128) (p : Fin 16) :
    k0_pay1 (F := Ideal) x0 (ix3 b r p) = ∑ d : Fin 64, x0 (ix4 b r p d) * x0 (ix4 b r p d) :=
  laneSum (mulf x0 x0) b r p

/-- A coordinate value at (b, r, p): the lane sum of the positions times the row. -/
theorem coordval_apply (x0 : Vec Ideal S8x128x16x64 .f32) (row : Vec Ideal S1x64 .f32) (b : Fin 8) (r : Fin 128) (p : Fin 16) :
    k0_pay5 (F := Ideal) x0 row (ix3 b r p) = ∑ d : Fin 64, x0 (ix4 b r p d) * row (ix2 (0 : Fin 1) d) := by
  refine (laneSum (mulf x0 (lanes64 row)) b r p).trans (Finset.sum_congr rfl fun d _ => ?_)
  exact congrArg (x0 (ix4 b r p d) * ·) (lanes64_apply row b r p d)

/-- The central difference along the first table's coordinate, pointwise in the squared norm and the coordinate value. -/
theorem diffK_apply (x0 : Vec Ideal S8x128x16x64 .f32) (q : FVec Ideal S8x128x16 .f32) (row : Vec Ideal S1x64 .f32) (i : S8x128x16.Idx) :
    k0_pay6 (F := Ideal) x0 q row i = centralDiff (q i) (k0_pay5 (F := Ideal) x0 row i) := rfl

/-- The central difference along the second table's coordinate, as the step computes it from the coordinate value, the
    squared norm less its square, and the norm moved forward. -/
def diffL (x0 : Vec Ideal S8x128x16x64 .f32) (row : Vec Ideal S1x64 .f32) : FVec Ideal S8x128x16 .f32 :=
  fun i => centralDiff (k0_pay1 (F := Ideal) x0 i) (k0_pay5 (F := Ideal) x0 row i)

/-- One step at the point (b, r): the carried value plus the sample at the point's squared norms, coordinate values
    and the two metric rows. -/
theorem step_apply (x0 : Vec Ideal S8x128x16x64 .f32) (r1 r2 : Vec Ideal S1x64 .f32) (r3 r4 : Vec Ideal S1x16 .f32)
    (acc : FVec Ideal S8x128 .f32) (b : Fin 8) (r : Fin 128) :
    step x0 r1 r2 r3 r4 acc (ix2 b r)
      = acc (ix2 b r) + sample (fun p => k0_pay1 (F := Ideal) x0 (ix3 b r p)) (fun p => k0_pay5 (F := Ideal) x0 r1 (ix3 b r p))
          (fun p => k0_pay5 (F := Ideal) x0 r2 (ix3 b r p)) (fun p => r3 (ix2 (0 : Fin 1) p)) (fun p => r4 (ix2 (0 : Fin 1) p)) := by
  unfold step k0_pay3 sample
  show acc (ix2 b r) + negTenW * (Ideal.sqrt (multiReduction .add [2] S8x128
          (mulf (mulf (k0_pay6 (F := Ideal) x0 (k0_pay1 x0) r1) (lanes16 r3)) (mulf (k0_pay6 (F := Ideal) x0 (k0_pay1 x0) r1) (lanes16 r3)))
          0x00000000#32 reduces_S8x128x16_S8x128 (.inl rfl) rfl (ix2 b r))
        + Ideal.sqrt (multiReduction .add [2] S8x128
          (mulf (mulf (diffL x0 r2) (lanes16 r4)) (mulf (diffL x0 r2) (lanes16 r4)))
          0x00000000#32 reduces_S8x128x16_S8x128 (.inl rfl) rfl (ix2 b r))) = _
  rw [compSum, compSum]
  refine congrArg (acc (ix2 b r) + ·) (congrArg (negTenW * ·) (congrArg₂ (· + ·)
    (congrArg Ideal.sqrt (Finset.sum_congr rfl fun p _ => ?_)) (congrArg Ideal.sqrt (Finset.sum_congr rfl fun p _ => ?_))))
  · show (k0_pay6 (F := Ideal) x0 (k0_pay1 x0) r1 (ix3 b r p) * lanes16 r3 (ix3 b r p))
        * (k0_pay6 (F := Ideal) x0 (k0_pay1 x0) r1 (ix3 b r p) * lanes16 r3 (ix3 b r p)) = _
    rw [lanes16_apply]
    rfl
  · show (diffL x0 r2 (ix3 b r p) * lanes16 r4 (ix3 b r p)) * (diffL x0 r2 (ix3 b r p) * lanes16 r4 (ix3 b r p)) = _
    rw [lanes16_apply]
    rfl

/-- THE BODY AT A POINT: what is stored at (b, r) of the output block is the mean of the four samples, sample s at the
    point's squared norms, its positions summed against row s of the two indicator tables, and row s of the two metric
    tables. -/
theorem body_apply (arg2 : Memref sig .tc .vmem S4x64 .f32) (harg2 : arg2.IsWhole) (arg3 : Memref sig .tc .vmem S4x64 .f32) (harg3 : arg3.IsWhole)
    (arg4 : Memref sig .tc .vmem S4x16 .f32) (harg4 : arg4.IsWhole) (arg5 : Memref sig .tc .vmem S4x16 .f32) (harg5 : arg5.IsWhole)
    (x0 : Vec Ideal S8x128x16x64 .f32) (x1 x2 : Vec Ideal S4x64 .f32) (x3 x4 : Vec Ideal S4x16 .f32) (b : Fin 8) (r : Fin 128) :
    k0_pay4 (F := Ideal)
      (step x0 (row64 arg2 (harg2.unread x1) (tripNo 3 (by decide))) (row64 arg3 (harg3.unread x2) (tripNo 3 (by decide))) (row16 arg4 (harg4.unread x3) (tripNo 3 (by decide))) (row16 arg5 (harg5.unread x4) (tripNo 3 (by decide)))
      (step x0 (row64 arg2 (harg2.unread x1) (tripNo 2 (by decide))) (row64 arg3 (harg3.unread x2) (tripNo 2 (by decide))) (row16 arg4 (harg4.unread x3) (tripNo 2 (by decide))) (row16 arg5 (harg5.unread x4) (tripNo 2 (by decide)))
      (step x0 (row64 arg2 (harg2.unread x1) (tripNo 1 (by decide))) (row64 arg3 (harg3.unread x2) (tripNo 1 (by decide))) (row16 arg4 (harg4.unread x3) (tripNo 1 (by decide))) (row16 arg5 (harg5.unread x4) (tripNo 1 (by decide)))
      (step x0 (row64 arg2 (harg2.unread x1) (tripNo 0 (by decide))) (row64 arg3 (harg3.unread x2) (tripNo 0 (by decide))) (row16 arg4 (harg4.unread x3) (tripNo 0 (by decide))) (row16 arg5 (harg5.unread x4) (tripNo 0 (by decide)))
        (k0_pay2 (F := Ideal)))))) (ix2 b r)
      = proxy fun s : Fin 4 => sample (fun p => ∑ d : Fin 64, x0 (ix4 b r p d) * x0 (ix4 b r p d))
          (fun p => ∑ d : Fin 64, x0 (ix4 b r p d) * x1 (ix2 s d)) (fun p => ∑ d : Fin 64, x0 (ix4 b r p d) * x2 (ix2 s d))
          (fun p => x3 (ix2 s p)) (fun p => x4 (ix2 s p)) := by
  unfold proxy
  refine congrArg (Ideal.div · fourW) ?_
  rw [step_apply, step_apply, step_apply, step_apply, ← sum_four]
  have z : k0_pay2 (F := Ideal) (ix2 b r) = 0 := Ideal.ofBits_zero_f32
  rw [z]
  simp only [sqnorm_apply, coordval_apply, row64_apply, row16_apply]
  rfl

end Cert.KernelIdeal.BodyValue

end
-- ==== Proof.KernelHost.lean ====
/-
  The four small tables the kernel's host prefix hands to the body, as the region finds them.  The two indicator tables
  [4, 64] hold, at (s, d), the number 1 when d is the plane index word k_s (resp. l_s) and 0 otherwise: the comparison of
  the lane number d with the word, converted to a float.  For a word below 64, "the 32-bit word of d equals the word"
  says exactly "d is the word's coordinate".  The two metric tables [4, 16] are the transposes of the gathered [16, 4]
  arrays.
-/
import proofs.«430706_j31181462569459_2_alg».proof.Proof.Gen.KernelIdeal.Frame
import proofs.«430706_j31181462569459_2_alg».proof.Proof.Spec
import Idealize.ShloMosaic.Lib.StableHlo.Run
import Idealize.ShloMosaic.Lib.Pipeline.Value
import Idealize.ShloMosaic.Lib.ValueLayout
import Idealize.ShloMosaic.Lib.Affine

set_option maxRecDepth 16384

noncomputable section

namespace Cert.KernelIdeal.HostValue

open Cert.KernelIdeal Cert.KernelIdeal.Gen
open Idealize.ShloMosaic Idealize.ShloMosaic.TcCoe Idealize.ShloMosaic.StableHlo Idealize.SL.Sem Idealize.ShloMosaic.ValueIdx Cert.Curvature

/-- The float of "the word of lane d equals w", for a word w below 64: 1 at the word's coordinate, else 0. -/
theorem indicator_word (w : BitVec 32) (d : Fin 64) (hw : w.toNat < 64) :
    (FloatOps.uitofp (F := Ideal) .f32 (IntOp.cmpi .eq (BitVec.ofNat 32 d.val) w) : EReal) = if d = coord w then 1 else 0 := by
  show (((IntOp.cmpi .eq (BitVec.ofNat 32 d.val) w).toNat : ℝ) : EReal) = _
  have hd : d.val < 64 := d.isLt
  by_cases h : d = coord w
  · have hv : d.val = w.toNat := by rw [h]; exact coord_val hw
    have e : BitVec.ofNat 32 d.val = w := by
      apply BitVec.eq_of_toNat_eq
      rw [BitVec.toNat_ofNat, hv]
      exact Nat.mod_eq_of_lt w.isLt
    rw [if_pos h, IntOp.cmpi_eq.2 e]
    simp
  · have e : IntOp.cmpi .eq (BitVec.ofNat 32 d.val) w = 0#1 := eq_zero_of_ne_one fun h1 => h (by
      have e' := IntOp.cmpi_eq.1 h1
      apply Fin.ext
      show d.val = w.toNat % 64
      rw [← e', BitVec.toNat_ofNat]
      omega)
    rw [if_neg h, e]
    simp

/-- The indicator table built from the index words `kI`, as the host prefix computes it. -/
def indicatorTable (kI : IVec S4 32) : FVec Ideal S4x64 .f32 :=
  uitofp .f32 (cmpi .eq
    (broadcastInDim S4x64 ![0, 1] bcast_S1x64_S4x64_0_1 (broadcastInDim S1x64 ![1] bcast_S64_S1x64_1 (iotaInDim S64 32 0)))
    (broadcastInDim S4x64 ![0, 1] bcast_S4x1_S4x64_0_1 (broadcastInDim S4x1 ![0] bcast_S4_S4x1_0 kI)))

/-- Row s of the indicator table marks the coordinate of word s. -/
theorem indicatorTable_apply (kI : IVec S4 32) (s : Fin 4) (d : Fin 64) (hk : (kI (ix1 s)).toNat < 64) :
    indicatorTable kI (ix2 s d) = if d = coord (kI (ix1 s)) then 1 else 0 := by
  have ea : (broadcastInDim S4x64 ![0, 1] bcast_S1x64_S4x64_0_1 (broadcastInDim S1x64 ![1] bcast_S64_S1x64_1 (iotaInDim S64 32 0))) (ix2 s d)
      = BitVec.ofNat 32 d.val := by
    refine (broadcastInDim_apply _ _ _ (ix2 s d) (ix2 (0 : Fin 1) d) ?_).trans ?_
    · intro a; fin_cases a <;> rfl
    refine (broadcastInDim_apply _ _ _ (ix2 (0 : Fin 1) d) (ix1 d) ?_).trans rfl
    intro a; fin_cases a; rfl
  have eb : (broadcastInDim S4x64 ![0, 1] bcast_S4x1_S4x64_0_1 (broadcastInDim S4x1 ![0] bcast_S4_S4x1_0 kI)) (ix2 s d) = kI (ix1 s) := by
    refine (broadcastInDim_apply _ _ _ (ix2 s d) (ix2 s (0 : Fin 1)) ?_).trans ?_
    · intro a; fin_cases a <;> rfl
    refine (broadcastInDim_apply _ _ _ (ix2 s (0 : Fin 1)) (ix1 s) ?_).trans rfl
    intro a; fin_cases a; rfl
  show FloatOps.uitofp (F := Ideal) .f32 (IntOp.cmpi .eq
      ((broadcastInDim S4x64 ![0, 1] bcast_S1x64_S4x64_0_1 (broadcastInDim S1x64 ![1] bcast_S64_S1x64_1 (iotaInDim S64 32 0))) (ix2 s d))
      ((broadcastInDim S4x64 ![0, 1] bcast_S4x1_S4x64_0_1 (broadcastInDim S4x1 ![0] bcast_S4_S4x1_0 kI)) (ix2 s d))) = _
  rw [ea, eb]
  exact indicator_word _ d hk

variable (m : (ℓ : Loc nD τ sig) → Buf (Elt Ideal) ℓ)

set_option maxHeartbeats 4000000 in
/-- The first indicator table is built from the words of k_idx. -/
theorem indicator_k (c : Dev nD) : (V m c main_v21 : S4x64.Idx → EReal) = indicatorTable (m ((c : Thread nD τ).loc main_arg2)) := by
  dsimp only [V]
  simp only [hostOps0, hostOps0_1, hostOps0_2, hostOps0_3, List.flatten_cons, List.flatten_nil, List.append_nil, List.cons_append, List.nil_append]
  after_results_simp
  try rfl

set_option maxHeartbeats 4000000 in
/-- The second from the words of l_idx. -/
theorem indicator_l (c : Dev nD) : (V m c main_v26 : S4x64.Idx → EReal) = indicatorTable (m ((c : Thread nD τ).loc main_arg3)) := by
  dsimp only [V]
  simp only [hostOps0, hostOps0_1, hostOps0_2, hostOps0_3, List.flatten_cons, List.flatten_nil, List.append_nil, List.cons_append, List.nil_append]
  after_results_simp
  try rfl

set_option maxHeartbeats 4000000 in
/-- The first metric table is the transpose of the gathered [16, 4] array. -/
theorem metric_kl (c : Dev nD) (s : Fin 4) (p : Fin 16) :
    (V m c main_v41 : S4x16.Idx → EReal) (ix2 s p) = (V m c main_v40 : S16x4.Idx → EReal) (ix2 p s) := by
  have e : (V m c main_v41 : S4x16.Idx → EReal) = transpose S4x16 [1, 0] (V m c main_v40 : S16x4.Idx → EReal) transposes_S16x4_S4x16_1_0 := by
    dsimp only [V]
    simp only [hostOps0, hostOps0_1, hostOps0_2, hostOps0_3, List.flatten_cons, List.flatten_nil, List.append_nil, List.cons_append, List.nil_append]
    after_results_simp
  rw [e]
  exact transpose_ix2_apply _ _ s p

set_option maxHeartbeats 4000000 in
/-- The second likewise. -/
theorem metric_lk (c : Dev nD) (s : Fin 4) (p : Fin 16) :
    (V m c main_v56 : S4x16.Idx → EReal) (ix2 s p) = (V m c main_v55 : S16x4.Idx → EReal) (ix2 p s) := by
  have e : (V m c main_v56 : S4x16.Idx → EReal) = transpose S4x16 [1, 0] (V m c main_v55 : S16x4.Idx → EReal) transposes_S16x4_S4x16_1_0 := by
    dsimp only [V]
    simp only [hostOps0, hostOps0_1, hostOps0_2, hostOps0_3, List.flatten_cons, List.flatten_nil, List.append_nil, List.cons_append, List.nil_append]
    after_results_simp
  rw [e]
  exact transpose_ix2_apply _ _ s p

end Cert.KernelIdeal.HostValue

end
-- ==== Proof.KernelFinal.lean ====
/-
  From the blocks to the array.  Grid point t (of 32) holds rows 128 t … 128 t + 127 of the second axis: its positions
  block is x[:, 128 t + r, :, :], its output block out[:, 128 t + r], and it holds the four small tables whole.  At
  (b, r) the body stores the mean of the four samples; a sample's coordinate value is the positions summed against a
  0/1 indicator row, which picks the coordinate of the plane index word; the metric rows are the gathered tables
  read transposed.  So every point writes its block of ONE function of the arrays, the specification's; the 32 blocks
  cover the output array, which is therefore that function.
-/
import proofs.«430706_j31181462569459_2_alg».proof.Proof.KernelPoint
import proofs.«430706_j31181462569459_2_alg».proof.Proof.KernelHost
import proofs.«430706_j31181462569459_2_alg».proof.Proof.Gen.KernelIdeal.Value

set_option maxRecDepth 16384

noncomputable section

namespace Cert.KernelIdeal.FinalValue

open Cert.KernelIdeal Cert.KernelIdeal.Gen Cert.KernelIdeal.BodyValue Cert.KernelIdeal.HostValue
open Idealize.ShloMosaic Idealize.ShloMosaic.TcCoe Idealize.SL.Sem Idealize.ShloMosaic.ValueIdx Cert.Curvature
open Idealize.ShloMosaic.Pipeline (Dat)

variable (m : (ℓ : Loc nD τ sig) → Buf (Elt Ideal) ℓ)

/-- The arrays as the region finds them, and a point's blocks of them, at their literal types. -/
abbrev posArr (c : Dev nD) : FVec Ideal S8x4096x16x64 .f32 := V m c main_arg0
abbrev indK (c : Dev nD) : FVec Ideal S4x64 .f32 := V m c main_v21
abbrev indL (c : Dev nD) : FVec Ideal S4x64 .f32 := V m c main_v26
abbrev metKL (c : Dev nD) : FVec Ideal S4x16 .f32 := V m c main_v41
abbrev metLK (c : Dev nD) : FVec Ideal S4x16 .f32 := V m c main_v56
abbrev tabKL (c : Dev nD) : FVec Ideal S16x4 .f32 := V m c main_v40
abbrev tabLK (c : Dev nD) : FVec Ideal S16x4 .f32 := V m c main_v55
abbrev kWords (c : Dev nD) : IVec S4 32 := m ((c : Thread nD τ).loc main_arg2)
abbrev lWords (c : Dev nD) : IVec S4 32 := m ((c : Thread nD τ).loc main_arg3)
abbrev posBlk (c : Dev nD) (t : Fin cfg0.N) : Vec Ideal S8x128x16x64 .f32 := iblk m c 0 t
abbrev indKBlk (c : Dev nD) (t : Fin cfg0.N) : Vec Ideal S4x64 .f32 := iblk m c 1 t
abbrev indLBlk (c : Dev nD) (t : Fin cfg0.N) : Vec Ideal S4x64 .f32 := iblk m c 2 t
abbrev metKLBlk (c : Dev nD) (t : Fin cfg0.N) : Vec Ideal S4x16 .f32 := iblk m c 3 t
abbrev metLKBlk (c : Dev nD) (t : Fin cfg0.N) : Vec Ideal S4x16 .f32 := iblk m c 4 t

/-- The block indices, decided over the 32 points: the positions' and the output's blocks move along the second axis
    with the point; the four tables' blocks stay at the origin. -/
theorem idx_facts : ∀ t : Fin cfg0.N,
    win0_0.index t (0 : Fin 4) = 0 ∧ win0_0.index t (1 : Fin 4) = t.val ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

theorem point_lt (t : Fin cfg0.N) : t.val < 32 := t.isLt

/-- Row 128 t + r of the second axis. -/
abbrev rowOf (t : Fin cfg0.N) (r : Fin 128) : Fin 4096 := ⟨t.val * 128 + r.val, by have := point_lt t; have := r.isLt; omega⟩

theorem posBlk_apply (c : Dev nD) (t : Fin cfg0.N) (b : Fin 8) (r : Fin 128) (p : Fin 16) (d : Fin 64) :
    posBlk m c t (ix4 b r p d) = posArr m c (ix4 b (rowOf t r) p d) := by
  show V m c main_arg0 (((cfg0.win 0).blk t).view.emb (ix4 b r p d)) = V m c main_arg0 (ix4 b (rowOf t r) p d)
  refine congrArg (V m c main_arg0) ?_
  obtain ⟨e0, e1, e2, e3, -⟩ := idx_facts t
  funext a; apply Fin.ext
  match a with
  | ⟨0, _⟩ => show win0_0.index t (0 : Fin 4) * 8 + 1 * b.val = b.val; omega
  | ⟨1, _⟩ => show win0_0.index t (1 : Fin 4) * 128 + 1 * r.val = t.val * 128 + r.val; omega
  | ⟨2, _⟩ => show win0_0.index t (2 : Fin 4) * 16 + 1 * p.val = p.val; omega
  | ⟨3, _⟩ => show win0_0.index t (3 : Fin 4) * 64 + 1 * d.val = d.val; omega

theorem indKBlk_apply (c : Dev nD) (t : Fin cfg0.N) (s : Fin 4) (d : Fin 64) : indKBlk m c t (ix2 s d) = indK m c (ix2 s d) := by
  show V m c main_v21 (((cfg0.win 1).blk t).view.emb (ix2 s d)) = V m c main_v21 (ix2 s d)
  refine congrArg (V m c main_v21) ?_
  obtain ⟨-, -, -, -, e0, e1, -⟩ := idx_facts t
  funext a; apply Fin.ext
  match a with
  | ⟨0, _⟩ => show win0_1.index t (0 : Fin 2) * 4 + 1 * s.val = s.val; omega
  | ⟨1, _⟩ => show win0_1.index t (1 : Fin 2) * 64 + 1 * d.val = d.val; omega

theorem indLBlk_apply (c : Dev nD) (t : Fin cfg0.N) (s : Fin 4) (d : Fin 64) : indLBlk m c t (ix2 s d) = indL m c (ix2 s d) := by
  show V m c main_v26 (((cfg0.win 2).blk t).view.emb (ix2 s d)) = V m c main_v26 (ix2 s d)
  refine congrArg (V m c main_v26) ?_
  obtain ⟨-, -, -, -, -, -, e0, e1, -⟩ := idx_facts t
  funext a; apply Fin.ext
  match a with
  | ⟨0, _⟩ => show win0_2.index t (0 : Fin 2) * 4 + 1 * s.val = s.val; omega
  | ⟨1, _⟩ => show win0_2.index t (1 : Fin 2) * 64 + 1 * d.val = d.val; omega

theorem metKLBlk_apply (c : Dev nD) (t : Fin cfg0.N) (s : Fin 4) (p : Fin 16) : metKLBlk m c t (ix2 s p) = metKL m c (ix2 s p) := by
  show V m c main_v41 (((cfg0.win 3).blk t).view.emb (ix2 s p)) = V m c main_v41 (ix2 s p)
  refine congrArg (V m c main_v41) ?_
  obtain ⟨-, -, -, -, -, -, -, -, e0, e1, -⟩ := idx_facts t
  funext a; apply Fin.ext
  match a with
  | ⟨0, _⟩ => show win0_3.index t (0 : Fin 2) * 4 + 1 * s.val = s.val; omega
  | ⟨1, _⟩ => show win0_3.index t (1 : Fin 2) * 16 + 1 * p.val = p.val; omega

theorem metLKBlk_apply (c : Dev nD) (t : Fin cfg0.N) (s : Fin 4) (p : Fin 16) : metLKBlk m c t (ix2 s p) = metLK m c (ix2 s p) := by
  show V m c main_v56 (((cfg0.win 4).blk t).view.emb (ix2 s p)) = V m c main_v56 (ix2 s p)
  refine congrArg (V m c main_v56) ?_
  obtain ⟨-, -, -, -, -, -, -, -, -, -, e0, e1, -⟩ := idx_facts t
  funext a; apply Fin.ext
  match a with
  | ⟨0, _⟩ => show win0_4.index t (0 : Fin 2) * 4 + 1 * s.val = s.val; omega
  | ⟨1, _⟩ => show win0_4.index t (1 : Fin 2) * 16 + 1 * p.val = p.val; omega

/-- What point t leaves in the output's staging buffer: the quotient of four nested steps from zero over its blocks. -/
theorem stored_eq (c : Dev nD) (t : Fin cfg0.N) :
    outsAt0 m c t = k0_pay4 (F := Ideal)
      (step (posBlk m c t) (row64 (ms0_1 t) ((hs0_1 t).unread (indKBlk m c t)) (tripNo 3 (by decide))) (row64 (ms0_2 t) ((hs0_2 t).unread (indLBlk m c t)) (tripNo 3 (by decide))) (row16 (ms0_3 t) ((hs0_3 t).unread (metKLBlk m c t)) (tripNo 3 (by decide))) (row16 (ms0_4 t) ((hs0_4 t).unread (metLKBlk m c t)) (tripNo 3 (by decide)))
      (step (posBlk m c t) (row64 (ms0_1 t) ((hs0_1 t).unread (indKBlk m c t)) (tripNo 2 (by decide))) (row64 (ms0_2 t) ((hs0_2 t).unread (indLBlk m c t)) (tripNo 2 (by decide))) (row16 (ms0_3 t) ((hs0_3 t).unread (metKLBlk m c t)) (tripNo 2 (by decide))) (row16 (ms0_4 t) ((hs0_4 t).unread (metLKBlk m c t)) (tripNo 2 (by decide)))
      (step (posBlk m c t) (row64 (ms0_1 t) ((hs0_1 t).unread (indKBlk m c t)) (tripNo 1 (by decide))) (row64 (ms0_2 t) ((hs0_2 t).unread (indLBlk m c t)) (tripNo 1 (by decide))) (row16 (ms0_3 t) ((hs0_3 t).unread (metKLBlk m c t)) (tripNo 1 (by decide))) (row16 (ms0_4 t) ((hs0_4 t).unread (metLKBlk m c t)) (tripNo 1 (by decide)))
      (step (posBlk m c t) (row64 (ms0_1 t) ((hs0_1 t).unread (indKBlk m c t)) (tripNo 0 (by decide))) (row64 (ms0_2 t) ((hs0_2 t).unread (indLBlk m c t)) (tripNo 0 (by decide))) (row16 (ms0_3 t) ((hs0_3 t).unread (metKLBlk m c t)) (tripNo 0 (by decide))) (row16 (ms0_4 t) ((hs0_4 t).unread (metLKBlk m c t)) (tripNo 0 (by decide)))
        (k0_pay2 (F := Ideal)))))) :=
  (out_eq c (grid0.coords t) (ms0_0 t) (hs0_0 t) (ms0_1 t) (hs0_1 t) (ms0_2 t) (hs0_2 t) (ms0_3 t) (hs0_3 t) (ms0_4 t) (hs0_4 t) (ms0_5 t) (hs0_5 t)
      (posBlk m c t) (indKBlk m c t) (indLBlk m c t) (metKLBlk m c t) (metLKBlk m c t)).trans
    (congrArg (k0_pay4 (F := Ideal)) (loop_eq Variants.none c none (grid0.coords t) (ms0_0 t) (hs0_0 t) (ms0_1 t) (hs0_1 t) (ms0_2 t) (hs0_2 t) (ms0_3 t) (hs0_3 t) (ms0_4 t) (hs0_4 t) (ms0_5 t) (hs0_5 t)
      (posBlk m c t) ((hs0_1 t).unread (indKBlk m c t)) ((hs0_2 t).unread (indLBlk m c t)) ((hs0_3 t).unread (metKLBlk m c t)) ((hs0_4 t).unread (metLKBlk m c t)) (k0_pay2 (F := Ideal))))

/-- THE VALUE AT A POINT: at (b, r) of point t's output block stands the specification's function of the arrays at
    (b, 128 t + r) — given that the plane index words are below 64. -/
theorem point_eq (c : Dev nD) (t : Fin cfg0.N) (b : Fin 8) (r : Fin 128)
    (hk : ∀ s : Fin 4, (kWords m c (ix1 s)).toNat < 64) (hl : ∀ s : Fin 4, (lWords m c (ix1 s)).toNat < 64) :
    outsAt0 m c t (ix2 b r) = curvature (posArr m c) (tabKL m c) (tabLK m c) (kWords m c) (lWords m c) (ix2 b (rowOf t r)) := by
  refine (congrFun (stored_eq m c t) (ix2 b r)).trans ?_
  refine (body_apply (ms0_1 t) (hs0_1 t) (ms0_2 t) (hs0_2 t) (ms0_3 t) (hs0_3 t) (ms0_4 t) (hs0_4 t)
    (posBlk m c t) (indKBlk m c t) (indLBlk m c t) (metKLBlk m c t) (metLKBlk m c t) b r).trans ?_
  unfold curvature
  refine congrArg proxy (funext fun s => ?_)
  have h1 : (fun p : Fin 16 => ∑ d : Fin 64, posBlk m c t (ix4 b r p d) * posBlk m c t (ix4 b r p d))
      = fun p => ∑ d : Fin 64, posArr m c (ix4 b (rowOf t r) p d) * posArr m c (ix4 b (rowOf t r) p d) :=
    funext fun p => Finset.sum_congr rfl fun d _ => by rw [posBlk_apply]
  have h2 : (fun p : Fin 16 => ∑ d : Fin 64, posBlk m c t (ix4 b r p d) * indKBlk m c t (ix2 s d))
      = fun p => posArr m c (ix4 b (rowOf t r) p (coord (kWords m c (ix1 s)))) :=
    funext fun p => by
      have e : ∀ d : Fin 64, posBlk m c t (ix4 b r p d) * indKBlk m c t (ix2 s d)
          = posArr m c (ix4 b (rowOf t r) p d) * indicatorTable (kWords m c) (ix2 s d) := fun d => by
        rw [posBlk_apply, indKBlk_apply, show indK m c = indicatorTable (kWords m c) from indicator_k m c]
      rw [Finset.sum_congr rfl fun d _ => e d]
      exact sum_indicator (fun d => posArr m c (ix4 b (rowOf t r) p d)) _ _ fun d => indicatorTable_apply (kWords m c) s d (hk s)
  have h3 : (fun p : Fin 16 => ∑ d : Fin 64, posBlk m c t (ix4 b r p d) * indLBlk m c t (ix2 s d))
      = fun p => posArr m c (ix4 b (rowOf t r) p (coord (lWords m c (ix1 s)))) :=
    funext fun p => by
      have e : ∀ d : Fin 64, posBlk m c t (ix4 b r p d) * indLBlk m c t (ix2 s d)
          = posArr m c (ix4 b (rowOf t r) p d) * indicatorTable (lWords m c) (ix2 s d) := fun d => by
        rw [posBlk_apply, indLBlk_apply, show indL m c = indicatorTable (lWords m c) from indicator_l m c]
      rw [Finset.sum_congr rfl fun d _ => e d]
      exact sum_indicator (fun d => posArr m c (ix4 b (rowOf t r) p d)) _ _ fun d => indicatorTable_apply (lWords m c) s d (hl s)
  have h4 : (fun p : Fin 16 => metKLBlk m c t (ix2 s p)) = fun p => tabKL m c (ix2 p s) :=
    funext fun p => (metKLBlk_apply m c t s p).trans (metric_kl m c s p)
  have h5 : (fun p : Fin 16 => metLKBlk m c t (ix2 s p)) = fun p => tabLK m c (ix2 p s) :=
    funext fun p => (metLKBlk_apply m c t s p).trans (metric_lk m c s p)
  rw [h1, h2, h3, h4, h5]

/-- WHAT POINT t WRITES BACK is block t of the specification's function of the arrays. -/
theorem flushed_eq (c : Dev nD) (t : Fin cfg0.N)
    (hk : ∀ s : Fin 4, (kWords m c (ix1 s)).toNat < 64) (hl : ∀ s : Fin 4, (lWords m c (ix1 s)).toNat < 64) :
    (dats m 0 c).flushed 5 t
      = ((cfg0.win 5).blk t).view.read (Elt Ideal) (curvature (posArr m c) (tabKL m c) (tabLK m c) (kWords m c) (lWords m c)) := by
  rw [Cert.KernelIdeal.Value.flushed5]
  funext (j : S8x128.Idx)
  obtain ⟨b, r, rfl⟩ : ∃ (b : Fin 8) (r : Fin 128), j = ix2 b r := ⟨j 0, j 1, eq_ix2 j⟩
  show outsAt0 m c t (ix2 b r)
    = curvature (posArr m c) (tabKL m c) (tabLK m c) (kWords m c) (lWords m c) (((cfg0.win 5).blk t).view.emb (ix2 b r))
  rw [point_eq m c t b r hk hl]
  refine congrArg (curvature (posArr m c) (tabKL m c) (tabLK m c) (kWords m c) (lWords m c)) ?_
  obtain ⟨-, -, -, -, -, -, -, -, -, -, -, -, e0, e1⟩ := idx_facts t
  funext a; apply Fin.ext
  match a with
  | ⟨0, _⟩ => show b.val = win0_5.index t (0 : Fin 2) * 8 + 1 * b.val; omega
  | ⟨1, _⟩ => show t.val * 128 + r.val = win0_5.index t (1 : Fin 2) * 128 + 1 * r.val; omega

/-- An index of the output array is in point t's block iff each coordinate is in the block's range on its axis. -/
theorem mem_blk (t : Fin cfg0.N) (i : S8x4096.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v57).slice (win0_5.rect t)).set ↔ _
  rw [View.set_slice_whole, Rect.mem_set_unit]
  exact Iff.rfl

/-- Every index of the output array lies in the block of the point that holds its row. -/
theorem cover (i : S8x4096.Idx) : ∃ t : Fin cfg0.N, (cfg0.win 5).flush t = true ∧ i ∈ ((cfg0.win 5).blk t).view.set := by
  have hi0 : (i 0).val < 8 := (i 0).isLt
  have hi1 : (i 1).val < 4096 := (i 1).isLt
  have hN : cfg0.N = 32 := N_0
  let t : Fin cfg0.N := ⟨(i 1).val / 128, by rw [hN]; omega⟩
  have ht : t.val = (i 1).val / 128 := rfl
  refine ⟨t, flush0_5 t, ?_⟩
  rw [mem_blk]
  obtain ⟨-, -, -, -, -, -, -, -, -, -, -, -, e0, e1⟩ := idx_facts t
  intro a
  match a with
  | ⟨0, _⟩ => show win0_5.index t (0 : Fin 2) * 8 ≤ (i 0).val ∧ (i 0).val < win0_5.index t (0 : Fin 2) * 8 + 8; omega
  | ⟨1, _⟩ => show win0_5.index t (1 : Fin 2) * 128 ≤ (i 1).val ∧ (i 1).val < win0_5.index t (1 : Fin 2) * 128 + 128; omega

/-- THE OUTPUT ARRAY after the run is the specification's function of the arrays. -/
theorem final (c : Dev nD)
    (hk : ∀ s : Fin 4, (kWords m c (ix1 s)).toNat < 64) (hl : ∀ s : Fin 4, (lWords m c (ix1 s)).toNat < 64) :
    (dats m 0 c).arrAt 5 cfg0.N = curvature (posArr m c) (tabKL m c) (tabLK m c) (kWords m c) (lWords m c) :=
  (dats m 0 c).arrAt_eq_of_cover 5 _ (fun t _ => flushed_eq m c t hk hl) cover

end Cert.KernelIdeal.FinalValue

end
-- ==== Proof.RefGather.lean ====
/-
  The reference's coordinate gather read at an index.

  The reference picks coordinate k_s of every point x[b,t,p,:] by a gather along the last axis whose start indices
  are the plane index words, each first normalised by "if k < 0 then k + 64 else k".  For a word in [0, 64) the signed
  reading is the unsigned one, the test k < 0 fails and the word passes unchanged; the gather's clamp to [0, 63]
  leaves it unchanged too.  On the three leading axes the gather reads the result's own coordinate.  So the gathered
  array at (b, t, p, s) is x[b, t, p, k_s].
-/
import proofs.«430706_j31181462569459_2_alg».proof.Proof.Gen.ReferenceIdeal.Read
import proofs.«430706_j31181462569459_2_alg».proof.Proof.Spec
import Idealize.ShloMosaic.Lib.ValueIdx
import Idealize.ShloMosaic.Lib.Affine

noncomputable section

namespace Cert.ReferenceIdeal.RefValue

open Cert.ReferenceIdeal Cert.ReferenceIdeal.Gen Cert.ReferenceIdeal.Read Idealize.ShloMosaic Idealize.ShloMosaic.ValueIdx

/-- The gather along the last axis: its dimension numbers. -/
abbrev lastAxis : GatherDims S8x4096x16x64 S4x1 S8x4096x16x4 :=
  gather_S8x4096x16x64_S4x1_S8x4096x16x4_012_3_n_n_3_1_84096161

/-- On axis 0 the operand index is the result's own coordinate. -/
theorem lastAxis_0 (j : S8x4096x16x4.Idx) (idx : IVec S4x1 32) : (lastAxis.operandIdx j idx 0).val = (j 0).val := by
  show lastAxis.start j idx 0 + lastAxis.batchCoord j 0 + lastAxis.offCoord j 0 = _
  rw [GatherDims.batchCoord_eq_zero _ _ _ List.not_mem_nil]
  unfold GatherDims.start GatherDims.offCoord
  rw [dif_neg (show ¬(0 : Fin S8x4096x16x64.rank) ∈ lastAxis.startIndexMap by decide),
    dif_pos (show (0 : Fin S8x4096x16x64.rank) ∈ lastAxis.sKept by decide), Nat.zero_add]
  have e : lastAxis.offsetDims[List.idxOf (0 : Fin S8x4096x16x64.rank) lastAxis.sKept]'(by decide)
      = (0 : Fin S8x4096x16x4.rank) := by decide
  exact congrArg (fun a => (j a).val) e

/-- On axis 1 the operand index is the result's own coordinate. -/
theorem lastAxis_1 (j : S8x4096x16x4.Idx) (idx : IVec S4x1 32) : (lastAxis.operandIdx j idx 1).val = (j 1).val := by
  show lastAxis.start j idx 1 + lastAxis.batchCoord j 1 + lastAxis.offCoord j 1 = _
  rw [GatherDims.batchCoord_eq_zero _ _ _ List.not_mem_nil]
  unfold GatherDims.start GatherDims.offCoord
  rw [dif_neg (show ¬(1 : Fin S8x4096x16x64.rank) ∈ lastAxis.startIndexMap by decide),
    dif_pos (show (1 : Fin S8x4096x16x64.rank) ∈ lastAxis.sKept by decide), Nat.zero_add]
  have e : lastAxis.offsetDims[List.idxOf (1 : Fin S8x4096x16x64.rank) lastAxis.sKept]'(by decide)
      = (1 : Fin S8x4096x16x4.rank) := by decide
  exact congrArg (fun a => (j a).val) e

/-- On axis 2 the operand index is the result's own coordinate. -/
theorem lastAxis_2 (j : S8x4096x16x4.Idx) (idx : IVec S4x1 32) : (lastAxis.operandIdx j idx 2).val = (j 2).val := by
  show lastAxis.start j idx 2 + lastAxis.batchCoord j 2 + lastAxis.offCoord j 2 = _
  rw [GatherDims.batchCoord_eq_zero _ _ _ List.not_mem_nil]
  unfold GatherDims.start GatherDims.offCoord
  rw [dif_neg (show ¬(2 : Fin S8x4096x16x64.rank) ∈ lastAxis.startIndexMap by decide),
    dif_pos (show (2 : Fin S8x4096x16x64.rank) ∈ lastAxis.sKept by decide), Nat.zero_add]
  have e : lastAxis.offsetDims[List.idxOf (2 : Fin S8x4096x16x64.rank) lastAxis.sKept]'(by decide)
      = (2 : Fin S8x4096x16x4.rank) := by decide
  exact congrArg (fun a => (j a).val) e

/-- On axis 3 the operand index is the start index of the result's sample, read signed and clamped to [0, 63]. -/
theorem lastAxis_3 (j : S8x4096x16x4.Idx) (idx : IVec S4x1 32) :
    (lastAxis.operandIdx j idx 3).val = min (idx (ix2 (j 3) 0)).toInt.toNat 63 := by
  show lastAxis.start j idx 3 + lastAxis.batchCoord j 3 + lastAxis.offCoord j 3 = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (3 : Fin S8x4096x16x64.rank) ∈ lastAxis.startIndexMap by decide)]
  have hsi : lastAxis.siIdx j ⟨List.idxOf (3 : Fin S8x4096x16x64.rank) lastAxis.startIndexMap,
      List.idxOf_lt_length_iff.2 (by decide)⟩ = ix2 (j 3) 0 := by
    funext b; refine Fin.ext ?_
    match b with
    | ⟨0, _⟩ => rfl
    | ⟨1, _⟩ => rfl
  rw [hsi]
  rfl

/-- A word in [0, 64) is unchanged by the normalisation "if k < 0 then k + 64 else k". -/
theorem normalise_of_lt (k a : BitVec 32) (h : k.toNat < 64) :
    Scalar.select (IntOp.cmpi .slt k 0#32) a k = k := by
  have hn : ¬IntOp.cmpi .slt k 0#32 = 1#1 := by
    rw [IntOp.cmpi_slt, BitVec.toInt_eq_toNat_of_lt (by omega), show (0#32 : BitVec 32).toInt = 0 from by decide]
    omega
  rw [eq_zero_of_ne_one hn, select_zero]

/-- The gather along the last axis at start indices that are words in [0, 64): the operand at that coordinate. -/
theorem gather_lastAxis (x0 : FVec Ideal S8x4096x16x64 .f32) (idx : IVec S4x1 32) (b : Fin 8) (t : Fin 4096)
    (p : Fin 16) (s : Fin 4) (h : (idx (ix2 s 0)).toNat < 64) :
    Host.gather lastAxis x0 idx (ix4 b t p s) = x0 (ix4 b t p (Cert.Curvature.coord (idx (ix2 s 0)))) := by
  unfold Host.gather
  refine congrArg x0 (funext fun a => Fin.ext ?_)
  match a with
  | ⟨0, _⟩ => exact lastAxis_0 _ _
  | ⟨1, _⟩ => exact lastAxis_1 _ _
  | ⟨2, _⟩ => exact lastAxis_2 _ _
  | ⟨3, _⟩ =>
    refine (lastAxis_3 _ _).trans ?_
    show min (idx (ix2 s 0)).toInt.toNat 63 = (Cert.Curvature.coord (idx (ix2 s 0))).val
    rw [Cert.Curvature.coord_val h, BitVec.toInt_eq_toNat_of_lt (by omega), Int.toNat_natCast]
    omega

/-- The reference's gather of coordinate k_s: x[b, t, p, k_s]. -/
theorem gather_coord_k (x0 : FVec Ideal S8x4096x16x64 .f32) (x2 : IVec S4 32)
    (hk : ∀ s : Fin 4, (x2 (ix1 s)).toNat < 64) (b : Fin 8) (t : Fin 4096) (p : Fin 16) (s : Fin 4) :
    Read.val_main_v24 (F := Ideal) x0 x2 (ix4 b t p s) = x0 (ix4 b t p (Cert.Curvature.coord (x2 (ix1 s)))) := by
  have e : Read.val_main_v23 (F := Ideal) x2 (ix2 s 0) = x2 (ix1 s) := by
    rw [val_main_v23_apply, val_main_v22_apply, val_main_v19_apply, val_main_v18_apply, val_main_c_3_apply,
      show idx_main_v23 (ix2 s (0 : Fin 1)) = ix1 s from funext fun a => Fin.ext (by match a with | ⟨0, _⟩ => rfl)]
    exact normalise_of_lt _ _ (hk s)
  unfold val_main_v24
  rw [gather_lastAxis x0 _ b t p s (by rw [e]; exact hk s), e]

/-- The reference's gather of coordinate l_s: x[b, t, p, l_s]. -/
theorem gather_coord_l (x0 : FVec Ideal S8x4096x16x64 .f32) (x3 : IVec S4 32)
    (hl : ∀ s : Fin 4, (x3 (ix1 s)).toNat < 64) (b : Fin 8) (t : Fin 4096) (p : Fin 16) (s : Fin 4) :
    Read.val_main_v57 (F := Ideal) x0 x3 (ix4 b t p s) = x0 (ix4 b t p (Cert.Curvature.coord (x3 (ix1 s)))) := by
  have e : Read.val_main_v56 (F := Ideal) x3 (ix2 s 0) = x3 (ix1 s) := by
    rw [val_main_v56_apply, val_main_v55_apply, val_main_v52_apply, val_main_v51_apply, val_main_c_12_apply,
      show idx_main_v56 (ix2 s (0 : Fin 1)) = ix1 s from funext fun a => Fin.ext (by match a with | ⟨0, _⟩ => rfl)]
    exact normalise_of_lt _ _ (hl s)
  unfold val_main_v57
  rw [gather_lastAxis x0 _ b t p s (by rw [e]; exact hl s), e]

end Cert.ReferenceIdeal.RefValue

end
-- ==== Proof.RefValue.lean ====
/-
  The reference's result is the curvature proxy of the specification.

  Read index by index, the reference computes at (b, t): for each sample s and component p the squared norm
  q_p = sum_d x[b,t,p,d]^2, the two coordinate values x[b,t,p,k_s] and x[b,t,p,l_s], the central differences of the
  conformal factor along them, the products with the gathered metric entries M[p,k_s,l_s] and M[p,l_s,k_s], the two
  Euclidean norms over p, their sum times -10, and the mean over s.  Each stage below reads one of these at an index;
  a sum started from the word 0 is the sum.  The two metric tables stay the reference's own gathered arrays.
-/
import proofs.«430706_j31181462569459_2_alg».proof.Proof.RefGather
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Curvature

/-! ## The squared norm of a point -/

/-- The squared norm broadcast along the samples (as the first coordinate's chain reads it). -/
theorem sqnorm_k (x0 : FVec Ideal S8x4096x16x64 .f32) (b : Fin 8) (t : Fin 4096) (p : Fin 16) (s : Fin 4) :
    Read.val_main_v26 (F := Ideal) x0 (ix4 b t p s) = ∑ d : Fin 64, x0 (ix4 b t p d) * x0 (ix4 b t p d) := by
  rw [val_main_v26_apply, val_main_v17_apply, val_main_v16_apply, val_main_cst_2_apply, Ideal.ofBits_def,
    Ideal.ofBits_zero_f32, zero_add]
  refine Finset.sum_congr rfl fun d _ => ?_
  rw [val_main_v15_apply, Ideal.mulf_def,
    show idx_main_v16 (idx_main_v17 (idx_main_v26 (ix4 b t p s))) d = ix4 b t p d from
      funext fun a => by match a with | ⟨0, _⟩ => rfl | ⟨1, _⟩ => rfl | ⟨2, _⟩ => rfl | ⟨3, _⟩ => rfl]

/-- The squared norm broadcast along the samples (as the second coordinate's chain reads it). -/
theorem sqnorm_l (x0 : FVec Ideal S8x4096x16x64 .f32) (b : Fin 8) (t : Fin 4096) (p : Fin 16) (s : Fin 4) :
    Read.val_main_v59 (F := Ideal) x0 (ix4 b t p s) = ∑ d : Fin 64, x0 (ix4 b t p d) * x0 (ix4 b t p d) := by
  rw [val_main_v59_apply, val_main_v17_apply, val_main_v16_apply, val_main_cst_2_apply, Ideal.ofBits_def,
    Ideal.ofBits_zero_f32, zero_add]
  refine Finset.sum_congr rfl fun d _ => ?_
  rw [val_main_v15_apply, Ideal.mulf_def,
    show idx_main_v16 (idx_main_v17 (idx_main_v59 (ix4 b t p s))) d = ix4 b t p d from
      funext fun a => by match a with | ⟨0, _⟩ => rfl | ⟨1, _⟩ => rfl | ⟨2, _⟩ => rfl | ⟨3, _⟩ => rfl]

/-! ## The central difference, pointwise -/

/-- Along the first coordinate: the central difference at the broadcast squared norm and the gathered value. -/
theorem diff_k (x0 : FVec Ideal S8x4096x16x64 .f32) (x2 : IVec S4 32) (i : S8x4096x16x4.Idx) :
    Read.val_main_v50 (F := Ideal) x0 x2 i
      = centralDiff (Read.val_main_v26 (F := Ideal) x0 i) (Read.val_main_v24 (F := Ideal) x0 x2 i) := by
  simp only [val_main_v50_apply, val_main_v49_apply, val_main_cst_11_apply, val_main_v48_apply, val_main_v42_apply,
    val_main_v47_apply, val_main_v41_apply, val_main_cst_8_apply, val_main_v46_apply, val_main_cst_10_apply,
    val_main_v40_apply, val_main_v45_apply, val_main_v39_apply, val_main_cst_7_apply, val_main_v44_apply,
    val_main_cst_9_apply, val_main_v38_apply, val_main_v43_apply, val_main_v32_apply, val_main_v37_apply,
    val_main_v31_apply, val_main_v36_apply, val_main_v27_apply, val_main_v30_apply, val_main_v35_apply,
    val_main_v29_apply, val_main_v34_apply, val_main_v28_apply, val_main_cst_5_apply, val_main_v33_apply,
    val_main_cst_6_apply, val_main_v25_apply, Ideal.hostDivf_def, Ideal.subf_def, Ideal.addf_def, Ideal.mulf_def,
    Ideal.hostUnary_sqrt_def, Ideal.hostUnary_tanh_def, Ideal.ofBits_def]
  rfl

/-- Along the second coordinate. -/
theorem diff_l (x0 : FVec Ideal S8x4096x16x64 .f32) (x3 : IVec S4 32) (i : S8x4096x16x4.Idx) :
    Read.val_main_v83 (F := Ideal) x0 x3 i
      = centralDiff (Read.val_main_v59 (F := Ideal) x0 i) (Read.val_main_v57 (F := Ideal) x0 x3 i) := by
  simp only [val_main_v83_apply, val_main_v82_apply, val_main_cst_20_apply, val_main_v81_apply, val_main_v75_apply,
    val_main_v80_apply, val_main_v74_apply, val_main_cst_17_apply, val_main_v79_apply, val_main_cst_19_apply,
    val_main_v73_apply, val_main_v78_apply, val_main_v72_apply, val_main_cst_16_apply, val_main_v77_apply,
    val_main_cst_18_apply, val_main_v71_apply, val_main_v76_apply, val_main_v65_apply, val_main_v70_apply,
    val_main_v64_apply, val_main_v69_apply, val_main_v60_apply, val_main_v63_apply, val_main_v68_apply,
    val_main_v62_apply, val_main_v67_apply, val_main_v61_apply, val_main_cst_14_apply, val_main_v66_apply,
    val_main_cst_15_apply, val_main_v58_apply, Ideal.hostDivf_def, Ideal.subf_def, Ideal.addf_def, Ideal.mulf_def,
    Ideal.hostUnary_sqrt_def, Ideal.hostUnary_tanh_def, Ideal.ofBits_def]
  rfl

/-! ## The weighted differences -/

/-- The difference along k_s times the metric entry M[p, k_s, l_s]. -/
theorem weighted_k (x0 : FVec Ideal S8x4096x16x64 .f32) (x1 : FVec Ideal S16x64x64 .f32) (x2 x3 : IVec S4 32)
    (hk : ∀ s : Fin 4, (x2 (ix1 s)).toNat < 64) (b : Fin 8) (t : Fin 4096) (p : Fin 16) (s : Fin 4) :
    Read.val_main_v114 (F := Ideal) x0 x1 x2 x3 (ix4 b t p s)
      = centralDiff (∑ d : Fin 64, x0 (ix4 b t p d) * x0 (ix4 b t p d)) (x0 (ix4 b t p (coord (x2 (ix1 s)))))
        * Read.val_main_v97 (F := Ideal) x1 x2 x3 (ix2 p s) := by
  rw [val_main_v114_apply, Ideal.mulf_def, diff_k, sqnorm_k, gather_coord_k x0 x2 hk, val_main_v113_apply,
    val_main_v112_apply,
    show idx_main_v112 (idx_main_v113 (ix4 b t p s)) = ix2 p s from
      funext fun a => by match a with | ⟨0, _⟩ => rfl | ⟨1, _⟩ => rfl]

/-- The difference along l_s times the metric entry M[p, l_s, k_s]. -/
theorem weighted_l (x0 : FVec Ideal S8x4096x16x64 .f32) (x1 : FVec Ideal S16x64x64 .f32) (x2 x3 : IVec S4 32)
    (hl : ∀ s : Fin 4, (x3 (ix1 s)).toNat < 64) (b : Fin 8) (t : Fin 4096) (p : Fin 16) (s : Fin 4) :
    Read.val_main_v117 (F := Ideal) x0 x1 x2 x3 (ix4 b t p s)
      = centralDiff (∑ d : Fin 64, x0 (ix4 b t p d) * x0 (ix4 b t p d)) (x0 (ix4 b t p (coord (x3 (ix1 s)))))
        * Read.val_main_v111 (F := Ideal) x1 x2 x3 (ix2 p s) := by
  rw [val_main_v117_apply, Ideal.mulf_def, diff_l, sqnorm_l, gather_coord_l x0 x3 hl, val_main_v116_apply,
    val_main_v115_apply,
    show idx_main_v115 (idx_main_v116 (ix4 b t p s)) = ix2 p s from
      funext fun a => by match a with | ⟨0, _⟩ => rfl | ⟨1, _⟩ => rfl]

/-! ## One sample -/

/-- The Euclidean norm over the components of the differences along k_s. -/
theorem norm_k (x0 : FVec Ideal S8x4096x16x64 .f32) (x1 : FVec Ideal S16x64x64 .f32) (x2 x3 : IVec S4 32)
    (hk : ∀ s : Fin 4, (x2 (ix1 s)).toNat < 64) (b : Fin 8) (t : Fin 4096) (s : Fin 4) :
    Read.val_main_v118 (F := Ideal) x0 x1 x2 x3 (ix3 b t s)
      = Ideal.sqrt (∑ p : Fin 16,
          (centralDiff (∑ d : Fin 64, x0 (ix4 b t p d) * x0 (ix4 b t p d)) (x0 (ix4 b t p (coord (x2 (ix1 s)))))
            * Read.val_main_v97 (F := Ideal) x1 x2 x3 (ix2 p s))
          * (centralDiff (∑ d : Fin 64, x0 (ix4 b t p d) * x0 (ix4 b t p d)) (x0 (ix4 b t p (coord (x2 (ix1 s)))))
            * Read.val_main_v97 (F := Ideal) x1 x2 x3 (ix2 p s))) := by
  rw [val_main_v118_apply, Ideal.hostUnary_sqrt_def, val_main_call2_v1_apply, val_main_call2_cst_apply,
    Ideal.ofBits_def, Ideal.ofBits_zero_f32, zero_add]
  refine congrArg Ideal.sqrt (Finset.sum_congr rfl fun p _ => ?_)
  rw [val_main_call2_v0_apply, Ideal.mulf_def,
    show idx_main_call2_v1 (ix3 b t s) p = ix4 b t p s from
      funext fun a => by match a with | ⟨0, _⟩ => rfl | ⟨1, _⟩ => rfl | ⟨2, _⟩ => rfl | ⟨3, _⟩ => rfl,
    weighted_k x0 x1 x2 x3 hk]

/-- The Euclidean norm over the components of the differences along l_s. -/
theorem norm_l (x0 : FVec Ideal S8x4096x16x64 .f32) (x1 : FVec Ideal S16x64x64 .f32) (x2 x3 : IVec S4 32)
    (hl : ∀ s : Fin 4, (x3 (ix1 s)).toNat < 64) (b : Fin 8) (t : Fin 4096) (s : Fin 4) :
    Read.val_main_v119 (F := Ideal) x0 x1 x2 x3 (ix3 b t s)
      = Ideal.sqrt (∑ p : Fin 16,
          (centralDiff (∑ d : Fin 64, x0 (ix4 b t p d) * x0 (ix4 b t p d)) (x0 (ix4 b t p (coord (x3 (ix1 s)))))
            * Read.val_main_v111 (F := Ideal) x1 x2 x3 (ix2 p s))
          * (centralDiff (∑ d : Fin 64, x0 (ix4 b t p d) * x0 (ix4 b t p d)) (x0 (ix4 b t p (coord (x3 (ix1 s)))))
            * Read.val_main_v111 (F := Ideal) x1 x2 x3 (ix2 p s))) := by
  rw [val_main_v119_apply, Ideal.hostUnary_sqrt_def, val_main_call3_v1_apply, val_main_call3_cst_apply,
    Ideal.ofBits_def, Ideal.ofBits_zero_f32, zero_add]
  refine congrArg Ideal.sqrt (Finset.sum_congr rfl fun p _ => ?_)
  rw [val_main_call3_v0_apply, Ideal.mulf_def,
    show idx_main_call3_v1 (ix3 b t s) p = ix4 b t p s from
      funext fun a => by match a with | ⟨0, _⟩ => rfl | ⟨1, _⟩ => rfl | ⟨2, _⟩ => rfl | ⟨3, _⟩ => rfl,
    weighted_l x0 x1 x2 x3 hl]

/-- One sample of the proxy at (b, t): -10 times the sum of the two norms. -/
theorem sample_apply (x0 : FVec Ideal S8x4096x16x64 .f32) (x1 : FVec Ideal S16x64x64 .f32) (x2 x3 : IVec S4 32)
    (hk : ∀ s : Fin 4, (x2 (ix1 s)).toNat < 64) (hl : ∀ s : Fin 4, (x3 (ix1 s)).toNat < 64)
    (b : Fin 8) (t : Fin 4096) (s : Fin 4) :
    Read.val_main_v122 (F := Ideal) x0 x1 x2 x3 (ix3 b t s)
      = sample (fun p => ∑ d : Fin 64, x0 (ix4 b t p d) * x0 (ix4 b t p d))
          (fun p => x0 (ix4 b t p (coord (x2 (ix1 s))))) (fun p => x0 (ix4 b t p (coord (x3 (ix1 s)))))
          (fun p => Read.val_main_v97 (F := Ideal) x1 x2 x3 (ix2 p s))
          (fun p => Read.val_main_v111 (F := Ideal) x1 x2 x3 (ix2 p s)) := by
  rw [val_main_v122_apply, Ideal.mulf_def, val_main_v121_apply, val_main_cst_29_apply, Ideal.ofBits_def,
    val_main_v120_apply, Ideal.addf_def, norm_k x0 x1 x2 x3 hk, norm_l x0 x1 x2 x3 hl]
  rfl

/-! ## The result -/

theorem reference_eq (x0 : FVec Ideal S8x4096x16x64 .f32) (x1 : FVec Ideal S16x64x64 .f32) (x2 x3 : IVec S4 32)
    (hk : ∀ s : Fin 4, (x2 (ix1 s)).toNat < 64) (hl : ∀ s : Fin 4, (x3 (ix1 s)).toNat < 64) :
    Read.val_main_v125 (F := Ideal) x0 x1 x2 x3
      = Cert.Curvature.curvature x0 (Read.val_main_v97 (F := Ideal) x1 x2 x3) (Read.val_main_v111 (F := Ideal) x1 x2 x3) x2 x3 := by
  funext j
  obtain ⟨b, t, rfl⟩ : ∃ (b : Fin 8) (t : Fin 4096), j = ix2 b t := ⟨j 0, j 1, eq_ix2 j⟩
  rw [val_main_v125_apply, Ideal.hostDivf_def, val_main_v124_apply, val_main_cst_31_apply, Ideal.ofBits_def,
    val_main_v123_apply, val_main_cst_30_apply, Ideal.ofBits_def, Ideal.ofBits_zero_f32, zero_add]
  have e : ∀ s : Fin 4, Read.val_main_v122 (F := Ideal) x0 x1 x2 x3 (idx_main_v123 (ix2 b t) s)
      = Read.val_main_v122 (F := Ideal) x0 x1 x2 x3 (ix3 b t s) := fun s =>
    congrArg _ (funext fun a => by match a with | ⟨0, _⟩ => rfl | ⟨1, _⟩ => rfl | ⟨2, _⟩ => rfl)
  simp only [e, sample_apply x0 x1 x2 x3 hk hl]
  rfl

end Cert.ReferenceIdeal.RefValue

end
-- ==== Proof.MetricTables.lean ====
/-
  The two gathered metric tables are the same arrays in both programs.

  Both programs form L = clip(tril(A), -5, 5) from the Cholesky argument A, the product M0 = L L^T (a contraction
  over the last axis, batched over the 16 components), the metric M = M0 + D with D[p,i,j] = 1e-5 * [i = j], and
  read the tables M[p, k_s, l_s] and M[p, l_s, k_s] by one gather whose index array is the pair of wrapped plane
  indices (k < 0 ? k + 64 : k), (l < 0 ? l + 64 : l), joined along a second axis.

  The only difference is the order in which D is laid out: one program scales the 64 x 64 identity by 1e-5 and then
  adds the leading axes, the other adds the unit leading axis to both factors first and multiplies afterwards. Entry
  by entry both are 1e-5 * [i = j], so D, hence M, hence the gathered tables agree. The contraction is the same sum
  in both programs: its precision annotation has no meaning on the extended reals.
-/
import proofs.«430706_j31181462569459_2_alg».proof.Proof.Gen.KernelIdeal.Frame
import proofs.«430706_j31181462569459_2_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.Curvature.MetricTables

open Idealize.ShloMosaic Idealize.ShloMosaic.TcCoe Idealize.ShloMosaic.StableHlo
open Cert.KernelIdeal Cert.KernelIdeal.Gen

/-- The diagonal term D in the second arrangement: the constant 1e-5 and the 64 x 64 identity are each given the unit
    leading axis, multiplied as [1, 64, 64] arrays, and the product is repeated over the 16 components. -/
abbrev diagLate : FVec Ideal S16x64x64 .f32 :=
  broadcastInDim S16x64x64 ![0, 1, 2] bcast_S1x64x64_S16x64x64_0_1_2
    (mulf (broadcastInDim S1x64x64 ![] bcast_S_S1x64x64 (constant (F := Ideal) S_ .f32 0x3727C5AC#32))
      (broadcastInDim S1x64x64 ![1, 2] bcast_S64x64_S1x64x64_1_2 (Cert.ReferenceIdeal.Read.val_main_v9 (F := Ideal))))

/-- Both arrangements of D have the entry 1e-5 * [i 1 = i 2] at (i 0, i 1, i 2): multiplying before or after the
    unit axis is added reads the same two factors. -/
theorem diagLate_eq : diagLate = Cert.ReferenceIdeal.Read.val_main_v13 (F := Ideal) := by
  funext i
  rw [Cert.ReferenceIdeal.Read.val_main_v13_apply, Cert.ReferenceIdeal.Read.val_main_v12_apply,
    Cert.ReferenceIdeal.Read.val_main_v11_apply, Cert.ReferenceIdeal.Read.val_main_v10_apply]
  unfold diagLate
  -- the repetition over the 16 components forgets the component i 0
  rw [broadcastInDim_apply _ bcast_S1x64x64_S16x64x64_0_1_2 _ i (Cert.ReferenceIdeal.Read.idx_main_v13 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)]
    | ⟨2, _⟩ => by show (i 2).val = if (64 : Nat) = 1 then 0 else (i 2).val; rw [if_neg (by decide)])]
  rw [ValueIdx.mulf_apply]
  -- the constant factor, and the identity at (i 1, i 2)
  rw [broadcastInDim_apply _ bcast_S_S1x64x64 _ (Cert.ReferenceIdeal.Read.idx_main_v13 i) (fun a => a.elim0) (fun a => a.elim0)]
  rw [broadcastInDim_apply _ bcast_S64x64_S1x64x64_1_2 _ (Cert.ReferenceIdeal.Read.idx_main_v13 i)
    (Cert.ReferenceIdeal.Read.idx_main_v12 (Cert.ReferenceIdeal.Read.idx_main_v13 i)) (fun a => match a with
    | ⟨0, _⟩ => by
      show ((Cert.ReferenceIdeal.Read.idx_main_v13 i) 1).val
        = if (64 : Nat) = 1 then 0 else ((Cert.ReferenceIdeal.Read.idx_main_v13 i) 1).val
      rw [if_neg (by decide)]
    | ⟨1, _⟩ => by
      show ((Cert.ReferenceIdeal.Read.idx_main_v13 i) 2).val
        = if (64 : Nat) = 1 then 0 else ((Cert.ReferenceIdeal.Read.idx_main_v13 i) 2).val
      rw [if_neg (by decide)])]
  rfl

variable (m : (ℓ : Loc nD τ sig) → Buf (Elt Ideal) ℓ)

set_option maxHeartbeats 4000000 in
/-- The table M[p, k_s, l_s] as the buffer holds it when the region is entered: the gather, at the wrapped index pairs
    (k, l), of L L^T plus the diagonal term in its second arrangement. Every stage but the diagonal term is the same
    operation on the same operands in both programs. -/
theorem table_kl_term (c : Dev nD) :
    (V m c main_v40 : S16x4.Idx → EReal)
      = Host.gather gather_S16x64x64_S4x2_S16x4_0_12_n_n_12_1_1611
          (addf (F := Ideal) (Cert.ReferenceIdeal.Read.val_main_v3 (F := Ideal) (m ((c.tc : Thread nD τ).loc main_arg1))) diagLate)
          (Cert.ReferenceIdeal.Read.val_main_v96 (F := Ideal)
            (m ((c.tc : Thread nD τ).loc main_arg2)) (m ((c.tc : Thread nD τ).loc main_arg3))) := by
  dsimp only [Gen.V]
  simp only [Gen.hostOps0, Gen.hostOps0_1, Gen.hostOps0_2, Gen.hostOps0_3, List.flatten_cons, List.flatten_nil,
    List.append_nil, List.cons_append, List.nil_append]
  after_results_simp
  rfl

set_option maxHeartbeats 4000000 in
/-- The table M[p, l_s, k_s] likewise: the same metric gathered at the index pairs (l, k). -/
theorem table_lk_term (c : Dev nD) :
    (V m c main_v55 : S16x4.Idx → EReal)
      = Host.gather gather_S16x64x64_S4x2_S16x4_0_12_n_n_12_1_1611
          (addf (F := Ideal) (Cert.ReferenceIdeal.Read.val_main_v3 (F := Ideal) (m ((c.tc : Thread nD τ).loc main_arg1))) diagLate)
          (Cert.ReferenceIdeal.Read.val_main_v110 (F := Ideal)
            (m ((c.tc : Thread nD τ).loc main_arg2)) (m ((c.tc : Thread nD τ).loc main_arg3))) := by
  dsimp only [Gen.V]
  simp only [Gen.hostOps0, Gen.hostOps0_1, Gen.hostOps0_2, Gen.hostOps0_3, List.flatten_cons, List.flatten_nil,
    List.append_nil, List.cons_append, List.nil_append]
  after_results_simp
  rfl

/-- The table M[p, k_s, l_s] is the same [16, 4] array in both programs. -/
theorem kernel_table_kl (c : Dev Cert.KernelIdeal.nD) :
    (Cert.KernelIdeal.Gen.V m c Cert.KernelIdeal.main_v40 : Cert.KernelIdeal.S16x4.Idx → EReal)
      = Cert.ReferenceIdeal.Read.val_main_v97 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  rw [table_kl_term m c, diagLate_eq]
  rfl

/-- The table M[p, l_s, k_s] is the same [16, 4] array in both programs. -/
theorem kernel_table_lk (c : Dev Cert.KernelIdeal.nD) :
    (Cert.KernelIdeal.Gen.V m c Cert.KernelIdeal.main_v55 : Cert.KernelIdeal.S16x4.Idx → EReal)
      = Cert.ReferenceIdeal.Read.val_main_v111 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  rw [table_lk_term m c, diagLate_eq]
  rfl

end Cert.Curvature.MetricTables

end
-- ==== Proof.lean ====
/-
  The curvature proxy, kernel against reference, over the extended reals.

  Both programs compute, at (b, t), the mean over four samples s of  -10 (|u_s| + |v_s|),  where for each of the 16
  components p the entries are  u_s[p] = D(x[b,t,p,:], k_s) M[p,k_s,l_s]  and  v_s[p] = D(x[b,t,p,:], l_s) M[p,l_s,k_s],
  D(x, k) being the central difference, with step 1e-3, of the conformal factor 1 + 0.1 tanh|x| along coordinate k, and
  M = L L^T + 1e-5 I with L the lower triangle of metric_chol clipped to [-5, 5].

  They differ in three ways, none of which changes a value.  The reference reads the coordinate x_k by indexing; the
  kernel sums x against a 0/1 indicator of k: every other summand is x_d * 0 = 0, so the sum is x_k — provided the index
  word is one of the 64 coordinates, which is the stated domain 0 <= k_s, l_s < 64 (outside it the reference's indexing
  wraps or clamps while the indicator is empty).  The reference sums the four samples at once; the kernel accumulates
  them from 0 in four steps.  And the two build the term 1e-5 I of M at different shapes before adding it, entry by
  entry the same product; the gathered tables M[p,k_s,l_s], M[p,l_s,k_s] are then the same arrays.

  So the kernel's output array (each grid point writes its block of one function of the arrays, and the blocks cover the
  array) and the reference's result are one function of the arguments.  The three frames are the generated frame runs;
  the idealization rewrote nothing.
-/
import proofs.«430706_j31181462569459_2_alg».proof.Defs
import proofs.«430706_j31181462569459_2_alg».proof.Proof.Gen.Kernel
import proofs.«430706_j31181462569459_2_alg».proof.Proof.Gen.Kernel.Skeleton
import proofs.«430706_j31181462569459_2_alg».proof.Proof.Gen.Kernel.Loops
import proofs.«430706_j31181462569459_2_alg».proof.Proof.Gen.Kernel.Launch
import proofs.«430706_j31181462569459_2_alg».proof.Proof.Gen.Kernel.Points
import proofs.«430706_j31181462569459_2_alg».proof.Proof.Gen.Kernel.Frame
import proofs.«430706_j31181462569459_2_alg».proof.Proof.Gen.KernelIdeal
import proofs.«430706_j31181462569459_2_alg».proof.Proof.Gen.KernelIdeal.Skeleton
import proofs.«430706_j31181462569459_2_alg».proof.Proof.Gen.KernelIdeal.Loops
import proofs.«430706_j31181462569459_2_alg».proof.Proof.Gen.KernelIdeal.Launch
import proofs.«430706_j31181462569459_2_alg».proof.Proof.Gen.KernelIdeal.Points
import proofs.«430706_j31181462569459_2_alg».proof.Proof.Gen.KernelIdeal.Frame
import proofs.«430706_j31181462569459_2_alg».proof.Proof.Gen.ReferenceIdeal
import proofs.«430706_j31181462569459_2_alg».proof.Proof.Gen.Pre_finite_inputs
import proofs.«430706_j31181462569459_2_alg».proof.Proof.Gen.KernelIdeal.Value
import proofs.«430706_j31181462569459_2_alg».proof.Proof.Gen.ReferenceIdeal.Run
import proofs.«430706_j31181462569459_2_alg».proof.Proof.Gen.ReferenceIdeal.Read
import proofs.«430706_j31181462569459_2_alg».proof.Proof.Domain
import proofs.«430706_j31181462569459_2_alg».proof.Proof.KernelFinal
import proofs.«430706_j31181462569459_2_alg».proof.Proof.RefValue
import proofs.«430706_j31181462569459_2_alg».proof.Proof.MetricTables
import Idealize.ShloMosaic.Adequacy
import Idealize.ShloMosaic.Init

noncomputable section

namespace Cert.Proof

open Idealize.ShloMosaic Idealize.SL.Sem Idealize.ShloMosaic.TcCoe Idealize.ShloMosaic.ValueIdx
open Cert.KernelIdeal.FinalValue

/-- The word-level kernel runs and keeps its arguments: the generated frame run. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the specification's function of the arguments: the kernel's output array by its blocks,
    the reference's result by its operations read index by index, the two gathered metric tables being the same arrays. -/
theorem algebraic : Cert.algebraic_KernelIdeal_ReferenceIdeal := by
  intro m ρ m' ρ' hpre hagree
  have hr : ∀ c : Dev Cert.KernelIdeal.nD,
      (∀ s : Fin 4, (kWords m c (ix1 s)).toNat < 64) ∧ (∀ s : Fin 4, (lWords m c (ix1 s)).toNat < 64) :=
    fun c => Cert.Curvature.Domain.index_range _ _ (kWords m c) (lWords m c) (hpre c)
  refine ⟨fun c => Cert.Curvature.curvature (m ((c.tc : Thread Cert.KernelIdeal.nD Cert.KernelIdeal.τ).loc Cert.KernelIdeal.main_arg0))
      (tabKL m c) (tabLK m c) (kWords m c) (lWords m c), ?_, ?_⟩
  · exact (θ_run Cert.KernelIdeal.defs _ _).mono (fun r h c => ⟨(h c).1.trans ((final m c (hr c).1 (hr c).2).trans
        (congrArg (fun x => Cert.Curvature.curvature x (tabKL m c) (tabLK m c) (kWords m c) (lWords m c)) (Cert.KernelIdeal.Gen.V_main_arg0 m c))),
      (h c).2⟩) (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v125_eq, (hagree c).1, (hagree c).2.1, (hagree c).2.2.1, (hagree c).2.2.2]
    rw [Cert.ReferenceIdeal.RefValue.reference_eq _ _ _ _ (hr c).1 (hr c).2]
    rw [← Cert.Curvature.MetricTables.kernel_table_kl m c, ← Cert.Curvature.MetricTables.kernel_table_lk m c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
